-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S1x8192x512 : Shape := ⟨3, ![1, 8192, 512]⟩
abbrev S2x8192x512 : Shape := ⟨3, ![2, 8192, 512]⟩
abbrev S2x8192 : Shape := ⟨2, ![2, 8192]⟩
abbrev S2x8192x1 : Shape := ⟨3, ![2, 8192, 1]⟩
abbrev S2x1x8192 : Shape := ⟨3, ![2, 1, 8192]⟩
abbrev S1x1024x512 : Shape := ⟨3, ![1, 1024, 512]⟩
abbrev S1x512x512 : Shape := ⟨3, ![1, 512, 512]⟩
abbrev S1x1024x1 : Shape := ⟨3, ![1, 1024, 1]⟩
abbrev S1x1x512 : Shape := ⟨3, ![1, 1, 512]⟩
abbrev S1024x1 : Shape := ⟨2, ![1024, 1]⟩
abbrev S1024x512 : Shape := ⟨2, ![1024, 512]⟩
abbrev S512x512 : Shape := ⟨2, ![512, 512]⟩
abbrev S1x512 : Shape := ⟨2, ![1, 512]⟩
abbrev S1024 : Shape := ⟨1, ![1024]⟩
abbrev S2 : Shape := ⟨1, ![2]⟩
abbrev S1 : Shape := ⟨1, ![1]⟩

abbrev nBuf : Space → Nat
  | .hbm => 37
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x8192x512, .f32⟩
  | .hbm, ⟨12, _⟩ => ⟨S1x8192x512, .f32⟩
  | .hbm, ⟨13, _⟩ => ⟨S2x8192x512, .f32⟩
  | .hbm, ⟨14, _⟩ => ⟨S2x8192x512, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S2x1x8192, .f32⟩
  | .hbm, ⟨19, _⟩ => ⟨S2x8192x1, .f32⟩
  | .hbm, ⟨20, _⟩ => ⟨S_, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S2, .f32⟩
  | .hbm, ⟨25, _⟩ => ⟨S_, .f32⟩
  | .hbm, ⟨26, _⟩ => ⟨S2, .f32⟩
  | .hbm, ⟨27, _⟩ => ⟨S2, .f32⟩
  | .hbm, ⟨28, _⟩ => ⟨S2, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1024x1, .f32⟩
  | .local _ .vmem, ⟨5, _⟩ => ⟨S1x1024x1, .f32⟩
  | .local _ .vmem, ⟨6, _⟩ => ⟨S1x1x512, .f32⟩
  | .local _ .vmem, ⟨7, _⟩ => ⟨S1x1x512, .f32⟩
  | .local _ .vmem, ⟨8, _⟩ => ⟨S1x1024x1, .f32⟩
  | .local _ .vmem, ⟨9, _⟩ => ⟨S1x1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8192x512_S8192_d1 : S8192x512.ReducesTo [1] S8192
  h_S_ : 0 < S_.numel
  reducesTo_S8192_S_d0 : S8192.ReducesTo [0] S_
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  reducesTo_S2x8192x512_S2x8192_d2 : S2x8192x512.ReducesTo [2] S2x8192
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reducesTo_S2x8192x1_S2_d1_2 : S2x8192x1.ReducesTo [1, 2] S2
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x8192x512.size a
  hwx0_0 : ∀ i : grid0.Coords, EltTy.bits .f32 = 32 ∨ (Rect.block (s := S2x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x8192x512.size a
  hwx0_1 : ∀ i : grid0.Coords, EltTy.bits .f32 = 32 ∨ (Rect.block (s := S2x8192x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x8192x1.size a
  hwx0_2 : ∀ i : grid0.Coords, EltTy.bits .f32 = 32 ∨ (Rect.block (s := S2x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x8192.size a
  hwx0_3 : ∀ i : grid0.Coords, EltTy.bits .f32 = 32 ∨ (Rect.block (s := S2x1x8192) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x8192x1.size a
  hwx0_4 : ∀ i : grid0.Coords, EltTy.bits .f32 = 32 ∨ (Rect.block (s := S2x8192x1) S1x1024x1.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v8) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S512x8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S512x8192, .f32⟩
  | .hbm, ⟨44, _⟩ => ⟨S8192x8192, .f32⟩
  | .hbm, ⟨45, _⟩ => ⟨S8192x1, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S8192_S_d0 : S8192.ReducesTo [0] S_
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KbData.lean ====
/-
  The pipeline's proof data for the pairwise-exponential row-sum kernel, at any float instance.

  The grid is (b, i, j) ∈ 2 × 8 × 16, point t = (b·8 + i)·16 + j. The kernel's four inputs are blocks of three
  arrays the host prefix builds: rows i of the stacked array (window 0), rows j of the SAME array (window 1), the
  squared norms as a column (window 2) and as a row (window 3). The output block (b, i) is visited at the sixteen
  consecutive points j = 0 … 15: at j = 0 the body resets it to zero, at every j it adds the tile's row sums, and
  only after j = 15 is it written back. So what the output's staging buffer holds after point t is a recursion on t:
  one step of the body's arithmetic over what the point before left, restarted from zero where t ≡ 0 (mod 16).
-/
import proofs.«156947_j65850438582800_1_alg».proof.Proof.Gen.Kernel.Launch
import proofs.«156947_j65850438582800_1_alg».proof.Proof.Gen.Kernel.Skeleton
import proofs.«156947_j65850438582800_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays the region finds -/

/-- Core `c`'s buffers at launch, as a valuation of the host operations; -/
abbrev V₀ (c : Dev nD) : Valuation τ sig (Elt F) := fun b => m ((c : Dev nD), b)
/-- and when the region is entered: the seventeen operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The point's staging memrefs, and the reset condition -/

abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1 .f32 := win0_4.stage (cfg0.slots t 4)
abbrev hs4 (t : Fin cfg0.N) : (ms4 t).IsWhole := hstage0_4 ((cfg0.slots t 4).cast nbuf0_4)

/-- The body's one branch: the innermost grid coordinate is zero (the printed scalar chain). -/
abbrev isFirstTile (i : grid0.Coords) : Prop :=
  (Scalar.cmpi .ne (Scalar.extui (Scalar.cmpi .eq (BitVec.ofNat 32 (i 2).val) 0#32)) 0#32) = 1#1
/-- It holds exactly at the points ≡ 0 (mod 16): decided over the 256 points. -/
theorem isFirstTile_iff : ∀ t : Fin cfg0.N, isFirstTile (grid0.coords t) ↔ t.val % 16 = 0 :=
  (by decide +kernel : ∀ t : Fin grid0.N, isFirstTile (grid0.coords t) ↔ t.val % 16 = 0)

/-! ## One step of the accumulation -/

/-- The zero block the body stores where the innermost coordinate is zero. -/
abbrev zeroBlk : Vec F S1x1024x1 .f32 := k0_pay2 (F := F)

/-- What the body stores into the output block: the tile's row sums added to what the block held. -/
def stepOut (x0 : Vec F S1x1024x512 .f32) (x1 : Vec F S1x512x512 .f32) (x2 : Vec F S1x1024x1 .f32) (x3 : Vec F S1x1x512 .f32)
    (prev : Vec F S1x1024x1 .f32) : Vec F S1x1024x1 .f32 :=
  k0_pay1 (k0_pay3 x0 x1 x2 x3 prev)

/-- What the output's staging buffer holds after the body at position `n`. -/
def outsAt (c : Dev nD) : (n : ℕ) → n < cfg0.N → Vec F S1x1024x1 .f32
  | 0, hn => stepOut (iblk m c 0 ⟨0, hn⟩) (iblk m c 1 ⟨0, hn⟩) (iblk m c 2 ⟨0, hn⟩) (iblk m c 3 ⟨0, hn⟩) zeroBlk
  | n + 1, hn =>
    if (n + 1) % 16 = 0 then
      stepOut (iblk m c 0 ⟨n + 1, hn⟩) (iblk m c 1 ⟨n + 1, hn⟩) (iblk m c 2 ⟨n + 1, hn⟩) (iblk m c 3 ⟨n + 1, hn⟩) zeroBlk
    else
      stepOut (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_first (c : Dev nD) (t : Fin cfg0.N) (h0 : t.val % 16 = 0) :
    outsAt m c t.val t.isLt = stepOut (iblk m c 0 t) (iblk m c 1 t) (iblk m c 2 t) (iblk m c 3 t) zeroBlk := by
  obtain ⟨n, hn⟩ := t
  cases n with
  | zero => exact rfl
  | succ n => exact (if_pos h0).trans rfl

theorem outsAt_later (c : Dev nD) (t : Fin cfg0.N) (h0 : ¬t.val % 16 = 0) :
    outsAt m c t.val t.isLt = stepOut (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- On core `c`: the arrays as the region finds them; after the body each input's buffer at its block, the output's at
    the accumulation; between points only the scoped buffers no window stages (there are none); nothing owed. The two
    windows on the stacked array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

end Cert.Kernel.Hand

end
-- ==== Proof.KbBody.lean ====
/-
  The kernel body's triple, once per control case, at any float instance.

  The body has one branch: at the first tile of a row block (innermost coordinate zero) it stores a zero block into the
  output's buffer before anything else. Either way it then loads its four input blocks and the output block, and stores
  back the output block plus the tile's row sums. So on whole staging buffers holding x0 … x3 it ends with the inputs
  as they were and the output's buffer at one step of the accumulation — over the zero block in the first case
  (whatever the buffer held), over what the buffer held in the other.
-/
import proofs.«156947_j65850438582800_1_alg».proof.Proof.KbData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl

set_option maxHeartbeats 1000000 in
theorem kernelRun_first (c : Dev nD) (i : grid0.Coords)
    (arg3 : Memref sig .tc .vmem S1x1024x512 .f32) (harg3 : arg3.IsWhole) (arg4 : Memref sig .tc .vmem S1x512x512 .f32) (harg4 : arg4.IsWhole)
    (arg5 : Memref sig .tc .vmem S1x1024x1 .f32) (harg5 : arg5.IsWhole) (arg6 : Memref sig .tc .vmem S1x1x512 .f32) (harg6 : arg6.IsWhole)
    (arg7 : Memref sig .tc .vmem S1x1024x1 .f32) (harg7 : arg7.IsWhole) (hc : isFirstTile i)
    (x0 : Vec F S1x1024x512 .f32) (x1 : Vec F S1x512x512 .f32) (x2 : Vec F S1x1024x1 .f32) (x3 : Vec F S1x1x512 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (stepOut x0 x1 x2 x3 zeroBlk)) -∗ K ⟨⟩))
      ⊢ wp frame (wpE (defs₀ (F := F)) Variants.none c none) E
          (cc0__pairwise_exp_sum_kernel i arg3 harg3 arg4 harg4 arg5 harg5 arg6 harg6 arg7 harg7) K := by
  simp only [cc0__pairwise_exp_sum_kernel_eq_skeleton]; unfold cc0__pairwise_exp_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0
  obtain rfl := harg4.eq_unread hf1
  obtain rfl := harg5.eq_unread hf2
  obtain rfl := harg6.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  rw [View.read_writes_eq_canon _ _ _ (fun y => ⟨_, List.mem_cons_self .., View.mem_set_unit_zero hz3 inb_S1x1024x1_S1x1024x1_0_0_0 y⟩)]
  rw [View.canon_cons_unit_zero hz3]
  unfold stepOut
  sl_unfold_run_names
  simp only [View.readAt_eq_ld, hf0, hf1, hf2, hf3, View.ld_unit_zero (S := S1x1024x512) hz3, View.ld_unit_zero (S := S1x512x512) hz3, View.ld_unit_zero (S := S1x1024x1) hz3, View.ld_unit_zero (S := S1x1x512) hz3, View.readCov_unit_zero (S := S1x1024x1) _ hz3]

set_option maxHeartbeats 1000000 in
theorem kernelRun_later (c : Dev nD) (i : grid0.Coords)
    (arg3 : Memref sig .tc .vmem S1x1024x512 .f32) (harg3 : arg3.IsWhole) (arg4 : Memref sig .tc .vmem S1x512x512 .f32) (harg4 : arg4.IsWhole)
    (arg5 : Memref sig .tc .vmem S1x1024x1 .f32) (harg5 : arg5.IsWhole) (arg6 : Memref sig .tc .vmem S1x1x512 .f32) (harg6 : arg6.IsWhole)
    (arg7 : Memref sig .tc .vmem S1x1024x1 .f32) (harg7 : arg7.IsWhole) (hc : ¬isFirstTile i)
    (x0 : Vec F S1x1024x512 .f32) (x1 : Vec F S1x512x512 .f32) (x2 : Vec F S1x1024x1 .f32) (x3 : Vec F S1x1x512 .f32)
    (prev : Vec F S1x1024x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (stepOut x0 x1 x2 x3 prev)) -∗ K ⟨⟩))
      ⊢ wp frame (wpE (defs₀ (F := F)) Variants.none c none) E
          (cc0__pairwise_exp_sum_kernel i arg3 harg3 arg4 harg4 arg5 harg5 arg6 harg6 arg7 harg7) K := by
  simp only [cc0__pairwise_exp_sum_kernel_eq_skeleton]; unfold cc0__pairwise_exp_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0
  obtain rfl := harg4.eq_unread hf1
  obtain rfl := harg5.eq_unread hf2
  obtain rfl := harg6.eq_unread hf3
  obtain rfl := harg7.eq_unread hf4
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  rw [View.read_writes_eq_canon _ _ _ (fun y => ⟨_, List.mem_cons_self .., View.mem_set_unit_zero hz3 inb_S1x1024x1_S1x1024x1_0_0_0 y⟩)]
  rw [View.canon_cons_unit_zero hz3]
  unfold stepOut
  sl_unfold_run_names
  simp only [View.readAt_eq_ld, hf0, hf1, hf2, hf3, hf4, View.ld_unit_zero (S := S1x1024x512) hz3, View.ld_unit_zero (S := S1x512x512) hz3, View.ld_unit_zero (S := S1x1024x1) hz3, View.ld_unit_zero (S := S1x1x512) hz3]

end Cert.Kernel.Hand
end
-- ==== Proof.KbOblig.lean ====
/-
  The pipeline's body obligation for the proof data: at every point, from what the pipeline hands the body, the body
  runs to what the proof data says it leaves.

  Each input's staging buffer holds its block at every point, fetched there or not (unfetched, the block index has not
  moved). The output's buffer holds anything at the first tile of a row block (the first point, or the point after a
  write-back), where the body resets it, and what the body left at the point before everywhere else (no write-back
  between). The points ≡ 0 (mod 16) are the body's first case, the others its second.
-/
import proofs.«156947_j65850438582800_1_alg».proof.Proof.KbBody
import Idealize.ShloMosaic.Lib.ValueIdx

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each input's staging buffer holds its block at every point, fetched there or not: unfetched, the block index has
    not moved. -/
private theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

private theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

private theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

private theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Away from the first tile of a row block the output's staging buffer holds what the body left at the point before:
    the point is not the first, and the point before (≢ 15 mod 16) wrote nothing back. -/
private theorem before_4_later (c : Dev nD) (t : Fin cfg0.N) (h0 : ¬t.val % 16 = 0) (d) :
    (dats m 0 c).before 4 t d = outsAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is handed at point `t`: the invariant, what is owed, and the five windows' buffers one by one, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
private def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The inputs' buffers hold their blocks. At a point ≡ 0 (mod 16) the body is in its first
    case, which takes the output's buffer at any contents and leaves one step over the zero block; elsewhere it is in
    its second, the output's buffer holds what the point before left, and the body leaves one step over that. The
    invariant and what is owed pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [outsAt_first m c t h0]
    iintro ⟨HΦ, Ho, ⟨%d0, H0⟩, ⟨%d1, H1⟩, ⟨%d2, H2⟩, ⟨%d3, H3⟩, ⟨%d4, H4⟩⟩
    iapply (kernelRun_first c (grid0.coords t) _ _ _ _ _ _ _ _ _ _ ((isFirstTile_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt_later m c t h0]
    simp only [before_4_later m c t h0]
    iintro ⟨HΦ, Ho, ⟨%d0, H0⟩, ⟨%d1, H1⟩, ⟨%d2, H2⟩, ⟨%d3, H3⟩, ⟨%d4, H4⟩⟩
    iapply (kernelRun_later c (grid0.coords t) _ _ _ _ _ _ _ _ _ _ (fun h => h0 ((isFirstTile_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbArrays.lean ====
/-
  The windows' arrays at the region's two ends, when two windows read one array.

  The kernel's five windows stand on FOUR buffers: windows 0 and 1 both read the stacked array. At the region's entry that
  buffer's full share is dealt to the two windows in halves; at its exit the halves — both at the contents the region
  found, since an input window's array is never written — are put back together. The norm column, the norm row and the
  result each belong to one window and are held whole throughout.
-/
import proofs.«156947_j65850438582800_1_alg».proof.Proof.KbData
import Idealize.ShloMosaic.Lib.ValueIdx
import Idealize.ShloMosaic.Lib.Pipeline.Regions

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The proof data's arrays, window by window: the stacked array twice at the two halves, the others whole. -/
theorem arrays_eq5 (c : Dev nD) (G : (w : Fin cfg0.W) → Buf (Elt F) ((cfg0.win w).arr.view.loc (c.tc : Thread nD τ))) :
    ((dats m 0 c).arrays G : sProp 𝕄)
      = iprop((((c.tc : Thread nD τ).loc main_v8) ↦{fullShare.left} G 0) ∗ (((c.tc : Thread nD τ).loc main_v8) ↦{fullShare.right} G 1)
          ∗ (((c.tc : Thread nD τ).loc main_v11) ↦{fullShare} G 2) ∗ (((c.tc : Thread nD τ).loc main_v12) ↦{fullShare} G 3)
          ∗ (((c.tc : Thread nD τ).loc main_v13) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The distinct buffers behind the windows' arrays, listed. -/
theorem arrBufs_eq4 (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v8) ↦{fullShare} W main_v8) ∗ (((c.tc : Thread nD τ).loc main_v11) ↦{fullShare} W main_v11)
          ∗ (((c.tc : Thread nD τ).loc main_v12) ↦{fullShare} W main_v12) ∗ (((c.tc : Thread nD τ).loc main_v13) ↦{fullShare} W main_v13)) := by
  unfold Pipeline.arrBufs
  exact bigSep_eq_bigSepL_of_eq [main_v8, main_v11, main_v12, main_v13] (by decide) (by decide) _

/-- ENTRY: the four buffers whole at the contents the region finds make the five windows' arrays at the proof data's
    entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq4, arrays_eq5]
  iintro ⟨H8, H11, H12, H13⟩
  ihave H := (pointsTo_share (Ix := Unit) (Name := ℕ) (U := UR sig nD τ) (Lvl := ℕ) (PosShare.mem_left_op_right fullShare)).1 $$ H8
  icases H with ⟨H8l, H8r⟩
  isplitl [H8l]; · iexact H8l
  isplitl [H8r]; · iexact H8r
  isplitl [H11]; · iexact H11
  isplitl [H12]; · iexact H12
  iexact H13

/-! ## After the region -/

/-- Core `c`'s buffers when the region is left: as the region found them, but for the result, which holds what the
    write-backs left. -/
def V1 (c : Dev nD) : Valuation τ sig (Elt F) :=
  Function.update (StableHlo.after hostOps0 (V₀ m c)) (Proc.devRef .tc main_v13) ((dats m 0 c).arrAt 4 cfg0.N)

theorem V1_v13 (c : Dev nD) : V1 m c (Proc.devRef .tc main_v13) = (dats m 0 c).arrAt 4 cfg0.N :=
  Function.update_self ..

theorem V1_of_ne (c : Dev nD) (b : Ref sig .tc) (hb : b ≠ main_v13) : V1 m c (Proc.devRef .tc b) = V m c b :=
  Function.update_of_ne (StableHlo.devRef_ne_of_ne hb) ..

/-- An input window's array is never written: it ends at the contents the region found. -/
theorem arrAt_in0 (c : Dev nD) : (dats m 0 c).arrAt 0 cfg0.N = V m c main_v8 := ((dats m 0 c).arrAt_in 0 rfl _).trans (A_eq m c 0)
theorem arrAt_in1 (c : Dev nD) : (dats m 0 c).arrAt 1 cfg0.N = V m c main_v8 := ((dats m 0 c).arrAt_in 1 rfl _).trans (A_eq m c 1)
theorem arrAt_in2 (c : Dev nD) : (dats m 0 c).arrAt 2 cfg0.N = V m c main_v11 := ((dats m 0 c).arrAt_in 2 rfl _).trans (A_eq m c 2)
theorem arrAt_in3 (c : Dev nD) : (dats m 0 c).arrAt 3 cfg0.N = V m c main_v12 := ((dats m 0 c).arrAt_in 3 rfl _).trans (A_eq m c 3)

/-- EXIT: the five windows' arrays at their final contents are the four buffers whole at the contents after the region. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c (Proc.devRef .tc b)) := by
  rw [arrBufs_eq4, arrays_eq5]
  rw [arrAt_in0, arrAt_in1, arrAt_in2, arrAt_in3, V1_v13, V1_of_ne m c main_v8 (by decide), V1_of_ne m c main_v11 (by decide),
    V1_of_ne m c main_v12 (by decide)]
  iintro ⟨H8l, H8r, H11, H12, H13⟩
  isplitl [H8l H8r]
  · iapply (pointsTo_share (Ix := Unit) (Name := ℕ) (U := UR sig nD τ) (Lvl := ℕ) (PosShare.mem_left_op_right fullShare)).2
    isplitl [H8l]; · iexact H8l
    iexact H8r
  isplitl [H11]; · iexact H11
  isplitl [H12]; · iexact H12
  iexact H13

/-- Off the windows' arrays the region changes nothing. -/
theorem unscopedRest_V1 (c : Dev nD) :
    (Pipeline.unscopedRest (Ix := Unit) (Name := ℕ) (U := UR sig nD τ) (Lvl := ℕ) spec0 c (fun b => V1 m c (Proc.devRef .tc b)) : sProp 𝕄)
      = Pipeline.unscopedRest (Ix := Unit) (Name := ℕ) (U := UR sig nD τ) (Lvl := ℕ) spec0 c (V m c) := by
  unfold Pipeline.unscopedRest
  refine bigSep_congr fun b hb => ?_
  have hne : b ≠ main_v13 := fun h => (Finset.mem_sdiff.mp hb).2 (h ▸ Finset.mem_image.mpr ⟨4, Finset.mem_univ _, rfl⟩)
  beta_reduce
  rw [V1_of_ne m c b hne]

end Cert.Kernel.Hand

end
-- ==== Proof.KbLaunch.lean ====
/-
  The launch: @main as a host stretch, the kernel region, a host stretch.

  Seventeen host operations build the stacked array, the squared norms in two layouts and the alignment term; the region
  runs the pipeline; seventeen more reduce the region's result to the loss. Between segments the core holds its unscoped
  buffers whole at a valuation: as launched, then after the first stretch, then with the result's buffer at what the
  write-backs left, then after the second stretch. The region is entered by dealing the stacked array's buffer to the two
  windows that read it and left by putting it back together; every other buffer but the windows' goes round the region
  untouched. At the end the result buffer and the two arguments are read off the last valuation.
-/
import proofs.«156947_j65850438582800_1_alg».proof.Proof.KbOblig
import proofs.«156947_j65850438582800_1_alg».proof.Proof.KbArrays
import Idealize.ShloMosaic.Lib.Pipeline.Regions
import Idealize.ShloMosaic.Lib.StableHlo.RunLoop

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

/-- The host stretch before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The host stretch after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The region: entered from what the first stretch left, left for the second. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V1 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Harr := (arrays_of_arrBufs m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave Hb := (arrBufs_of_arrays m c) $$ Ha
    imodintro
    isplitr [HO]
    · rw [← Pipeline.unscopedBufs_held c (V1 m c), Pipeline.unscopedBufs_split₀ cfgs 0 winFacts₀0.arr_unscoped c (fun b => V1 m c (Proc.devRef .tc b)), unscopedRest_V1]
      isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, at any float instance, from any memory with zero counters: every weakly fair execution of @main
    terminates, nothing faulting, and every final state has every unscoped buffer at what the second host stretch makes
    of the contents the region left. -/
theorem run_all : θ_run defs (onTc (τ := τ) (main (F := F))) ⟨m, fun _ => 0, ρ⟩
    (fun r => ∀ c : Dev nD, ∀ b ∈ Pipeline.ucRefs τ sig, r.2.mem ((c : Dev nD), b) = StableHlo.after hostOps1 (V1 m c) b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU (u₀ : UR sig nD τ) : sProp 𝕄)
          ⊢ BI.own (EP (initOf (Pipeline.cells (Pipeline.pin (pcfgs (F := F)) adm) cellOf_inj) (Pipeline.launchToks (Pipeline.pin (pcfgs (F := F)) adm) cellOf_inj))) := .rfl
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = StableHlo.after hostOps1 (V1 m c) b)
    (hfin := fun c s' => by
      unfold StableHlo.held
      iintro ⟨Hh, HSI⟩
      ihave Hr := (pointsTo_read_all (Pipeline.ucRefs τ sig) (fun b => ((c : Dev nD), b)) (fun b => StableHlo.after hostOps1 (V1 m c) b) s') $$ [Hh HSI]
      · isplitl [Hh] <;> iassumption
      icases Hr with ⟨%h, HSI⟩
      imodintro
      isplitr; · ipureintro; exact h
      iexact HSI)
    (hQ := fun _ h => h)

/-- info: 'Cert.Kernel.Hand.run_all' depends on axioms: [propext, Classical.choice, Quot.sound] -/
#guard_msgs in #print axioms run_all

end Cert.Kernel.Hand

end
-- ==== Proof.KbArgs.lean ====
/-
  No host operation writes an argument: each of the two argument buffers reaches the region, and the end, as launched.
  Read off the operations' composed valuation: every operation writes its own result buffer only.
-/
import proofs.«156947_j65850438582800_1_alg».proof.Proof.KbData
import Idealize.ShloMosaic.Lib.ValueIdx
import Idealize.ShloMosaic.Lib.StableHlo.Run

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The operations before the region leave the arguments as launched; -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- and so do the operations after it, from any contents. -/
theorem tail_arg0 (W : Valuation τ sig (Elt F)) : StableHlo.after hostOps1 W (Proc.devRef .tc main_arg0) = W (Proc.devRef .tc main_arg0) := by
  after_results
theorem tail_arg1 (W : Valuation τ sig (Elt F)) : StableHlo.after hostOps1 W (Proc.devRef .tc main_arg1) = W (Proc.devRef .tc main_arg1) := by
  after_results

end Cert.Kernel.Hand

end
-- ==== Proof.KbFrame.lean ====
/-
  The run read at the three buffers the claims speak of: the result, and the two arguments, which no host operation
  writes and which are no window's array.
-/
import proofs.«156947_j65850438582800_1_alg».proof.Proof.KbLaunch
import proofs.«156947_j65850438582800_1_alg».proof.Proof.KbArgs

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main terminates, nothing faulting, with the result buffer at what the second host
    stretch computes from the contents the region left, and both arguments as launched. -/
theorem run_main : θ_run defs (onTc (τ := τ) (main (F := F))) ⟨m, fun _ => 0, ρ⟩ (fun r => ∀ c : Dev nD,
      r.2.mem ((c.tc : Thread nD τ).loc main_v26) = StableHlo.after hostOps1 (V1 m c) (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (StableHlo.devRef_mem_ucRefs main_v26 rfl),
     (h c _ (StableHlo.devRef_mem_ucRefs main_arg0 rfl)).trans ((tail_arg0 (V1 m c)).trans ((V1_of_ne m c main_arg0 (by decide)).trans (V_arg0 m c))),
     (h c _ (StableHlo.devRef_mem_ucRefs main_arg1 rfl)).trans ((tail_arg1 (V1 m c)).trans ((V1_of_ne m c main_arg1 (by decide)).trans (V_arg1 m c)))⟩)
    (run_all m ρ)

/-- The frame: the program runs to the end and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.Kernel.Hand

end
-- ==== Proof.KiData.lean ====
/-
  The pipeline's proof data for the pairwise-exponential row-sum kernel, at any float instance.

  The grid is (b, i, j) ∈ 2 × 8 × 16, point t = (b·8 + i)·16 + j. The kernel's four inputs are blocks of three
  arrays the host prefix builds: rows i of the stacked array (window 0), rows j of the SAME array (window 1), the
  squared norms as a column (window 2) and as a row (window 3). The output block (b, i) is visited at the sixteen
  consecutive points j = 0 … 15: at j = 0 the body resets it to zero, at every j it adds the tile's row sums, and
  only after j = 15 is it written back. So what the output's staging buffer holds after point t is a recursion on t:
  one step of the body's arithmetic over what the point before left, restarted from zero where t ≡ 0 (mod 16).
-/
import proofs.«156947_j65850438582800_1_alg».proof.Proof.Gen.KernelIdeal.Launch
import proofs.«156947_j65850438582800_1_alg».proof.Proof.Gen.KernelIdeal.Skeleton
import proofs.«156947_j65850438582800_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays the region finds -/

/-- Core `c`'s buffers at launch, as a valuation of the host operations; -/
abbrev V₀ (c : Dev nD) : Valuation τ sig (Elt F) := fun b => m ((c : Dev nD), b)
/-- and when the region is entered: the seventeen operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The point's staging memrefs, and the reset condition -/

abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1 .f32 := win0_4.stage (cfg0.slots t 4)
abbrev hs4 (t : Fin cfg0.N) : (ms4 t).IsWhole := hstage0_4 ((cfg0.slots t 4).cast nbuf0_4)

/-- The body's one branch: the innermost grid coordinate is zero (the printed scalar chain). -/
abbrev isFirstTile (i : grid0.Coords) : Prop :=
  (Scalar.cmpi .ne (Scalar.extui (Scalar.cmpi .eq (BitVec.ofNat 32 (i 2).val) 0#32)) 0#32) = 1#1
/-- It holds exactly at the points ≡ 0 (mod 16): decided over the 256 points. -/
theorem isFirstTile_iff : ∀ t : Fin cfg0.N, isFirstTile (grid0.coords t) ↔ t.val % 16 = 0 :=
  (by decide +kernel : ∀ t : Fin grid0.N, isFirstTile (grid0.coords t) ↔ t.val % 16 = 0)

/-! ## One step of the accumulation -/

/-- The zero block the body stores where the innermost coordinate is zero. -/
abbrev zeroBlk : Vec F S1x1024x1 .f32 := k0_pay2 (F := F)

/-- What the body stores into the output block: the tile's row sums added to what the block held. -/
def stepOut (x0 : Vec F S1x1024x512 .f32) (x1 : Vec F S1x512x512 .f32) (x2 : Vec F S1x1024x1 .f32) (x3 : Vec F S1x1x512 .f32)
    (prev : Vec F S1x1024x1 .f32) : Vec F S1x1024x1 .f32 :=
  k0_pay1 (k0_pay3 x0 x1 x2 x3 prev)

/-- What the output's staging buffer holds after the body at position `n`. -/
def outsAt (c : Dev nD) : (n : ℕ) → n < cfg0.N → Vec F S1x1024x1 .f32
  | 0, hn => stepOut (iblk m c 0 ⟨0, hn⟩) (iblk m c 1 ⟨0, hn⟩) (iblk m c 2 ⟨0, hn⟩) (iblk m c 3 ⟨0, hn⟩) zeroBlk
  | n + 1, hn =>
    if (n + 1) % 16 = 0 then
      stepOut (iblk m c 0 ⟨n + 1, hn⟩) (iblk m c 1 ⟨n + 1, hn⟩) (iblk m c 2 ⟨n + 1, hn⟩) (iblk m c 3 ⟨n + 1, hn⟩) zeroBlk
    else
      stepOut (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_first (c : Dev nD) (t : Fin cfg0.N) (h0 : t.val % 16 = 0) :
    outsAt m c t.val t.isLt = stepOut (iblk m c 0 t) (iblk m c 1 t) (iblk m c 2 t) (iblk m c 3 t) zeroBlk := by
  obtain ⟨n, hn⟩ := t
  cases n with
  | zero => exact rfl
  | succ n => exact (if_pos h0).trans rfl

theorem outsAt_later (c : Dev nD) (t : Fin cfg0.N) (h0 : ¬t.val % 16 = 0) :
    outsAt m c t.val t.isLt = stepOut (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- On core `c`: the arrays as the region finds them; after the body each input's buffer at its block, the output's at
    the accumulation; between points only the scoped buffers no window stages (there are none); nothing owed. The two
    windows on the stacked array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

end Cert.KernelIdeal.Hand

end
-- ==== Proof.KiBody.lean ====
/-
  The kernel body's triple, once per control case, at any float instance.

  The body has one branch: at the first tile of a row block (innermost coordinate zero) it stores a zero block into the
  output's buffer before anything else. Either way it then loads its four input blocks and the output block, and stores
  back the output block plus the tile's row sums. So on whole staging buffers holding x0 … x3 it ends with the inputs
  as they were and the output's buffer at one step of the accumulation — over the zero block in the first case
  (whatever the buffer held), over what the buffer held in the other.
-/
import proofs.«156947_j65850438582800_1_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl

set_option maxHeartbeats 1000000 in
theorem kernelRun_first (c : Dev nD) (i : grid0.Coords)
    (arg3 : Memref sig .tc .vmem S1x1024x512 .f32) (harg3 : arg3.IsWhole) (arg4 : Memref sig .tc .vmem S1x512x512 .f32) (harg4 : arg4.IsWhole)
    (arg5 : Memref sig .tc .vmem S1x1024x1 .f32) (harg5 : arg5.IsWhole) (arg6 : Memref sig .tc .vmem S1x1x512 .f32) (harg6 : arg6.IsWhole)
    (arg7 : Memref sig .tc .vmem S1x1024x1 .f32) (harg7 : arg7.IsWhole) (hc : isFirstTile i)
    (x0 : Vec F S1x1024x512 .f32) (x1 : Vec F S1x512x512 .f32) (x2 : Vec F S1x1024x1 .f32) (x3 : Vec F S1x1x512 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (stepOut x0 x1 x2 x3 zeroBlk)) -∗ K ⟨⟩))
      ⊢ wp frame (wpE (defs₀ (F := F)) Variants.none c none) E
          (cc0__pairwise_exp_sum_kernel i arg3 harg3 arg4 harg4 arg5 harg5 arg6 harg6 arg7 harg7) K := by
  simp only [cc0__pairwise_exp_sum_kernel_eq_skeleton]; unfold cc0__pairwise_exp_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0
  obtain rfl := harg4.eq_unread hf1
  obtain rfl := harg5.eq_unread hf2
  obtain rfl := harg6.eq_unread hf3
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  rw [View.read_writes_eq_canon _ _ _ (fun y => ⟨_, List.mem_cons_self .., View.mem_set_unit_zero hz3 inb_S1x1024x1_S1x1024x1_0_0_0 y⟩)]
  rw [View.canon_cons_unit_zero hz3]
  unfold stepOut
  sl_unfold_run_names
  simp only [View.readAt_eq_ld, hf0, hf1, hf2, hf3, View.ld_unit_zero (S := S1x1024x512) hz3, View.ld_unit_zero (S := S1x512x512) hz3, View.ld_unit_zero (S := S1x1024x1) hz3, View.ld_unit_zero (S := S1x1x512) hz3, View.readCov_unit_zero (S := S1x1024x1) _ hz3]

set_option maxHeartbeats 1000000 in
theorem kernelRun_later (c : Dev nD) (i : grid0.Coords)
    (arg3 : Memref sig .tc .vmem S1x1024x512 .f32) (harg3 : arg3.IsWhole) (arg4 : Memref sig .tc .vmem S1x512x512 .f32) (harg4 : arg4.IsWhole)
    (arg5 : Memref sig .tc .vmem S1x1024x1 .f32) (harg5 : arg5.IsWhole) (arg6 : Memref sig .tc .vmem S1x1x512 .f32) (harg6 : arg6.IsWhole)
    (arg7 : Memref sig .tc .vmem S1x1024x1 .f32) (harg7 : arg7.IsWhole) (hc : ¬isFirstTile i)
    (x0 : Vec F S1x1024x512 .f32) (x1 : Vec F S1x512x512 .f32) (x2 : Vec F S1x1024x1 .f32) (x3 : Vec F S1x1x512 .f32)
    (prev : Vec F S1x1024x1 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (stepOut x0 x1 x2 x3 prev)) -∗ K ⟨⟩))
      ⊢ wp frame (wpE (defs₀ (F := F)) Variants.none c none) E
          (cc0__pairwise_exp_sum_kernel i arg3 harg3 arg4 harg4 arg5 harg5 arg6 harg6 arg7 harg7) K := by
  simp only [cc0__pairwise_exp_sum_kernel_eq_skeleton]; unfold cc0__pairwise_exp_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0
  obtain rfl := harg4.eq_unread hf1
  obtain rfl := harg5.eq_unread hf2
  obtain rfl := harg6.eq_unread hf3
  obtain rfl := harg7.eq_unread hf4
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  rw [View.read_writes_eq_canon _ _ _ (fun y => ⟨_, List.mem_cons_self .., View.mem_set_unit_zero hz3 inb_S1x1024x1_S1x1024x1_0_0_0 y⟩)]
  rw [View.canon_cons_unit_zero hz3]
  unfold stepOut
  sl_unfold_run_names
  simp only [View.readAt_eq_ld, hf0, hf1, hf2, hf3, hf4, View.ld_unit_zero (S := S1x1024x512) hz3, View.ld_unit_zero (S := S1x512x512) hz3, View.ld_unit_zero (S := S1x1024x1) hz3, View.ld_unit_zero (S := S1x1x512) hz3]

end Cert.KernelIdeal.Hand
end
-- ==== Proof.KiOblig.lean ====
/-
  The pipeline's body obligation for the proof data: at every point, from what the pipeline hands the body, the body
  runs to what the proof data says it leaves.

  Each input's staging buffer holds its block at every point, fetched there or not (unfetched, the block index has not
  moved). The output's buffer holds anything at the first tile of a row block (the first point, or the point after a
  write-back), where the body resets it, and what the body left at the point before everywhere else (no write-back
  between). The points ≡ 0 (mod 16) are the body's first case, the others its second.
-/
import proofs.«156947_j65850438582800_1_alg».proof.Proof.KiBody
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each input's staging buffer holds its block at every point, fetched there or not: unfetched, the block index has
    not moved. -/
private theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

private theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

private theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

private theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Away from the first tile of a row block the output's staging buffer holds what the body left at the point before:
    the point is not the first, and the point before (≢ 15 mod 16) wrote nothing back. -/
private theorem before_4_later (c : Dev nD) (t : Fin cfg0.N) (h0 : ¬t.val % 16 = 0) (d) :
    (dats m 0 c).before 4 t d = outsAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is handed at point `t`: the invariant, what is owed, and the five windows' buffers one by one, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
private def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The inputs' buffers hold their blocks. At a point ≡ 0 (mod 16) the body is in its first
    case, which takes the output's buffer at any contents and leaves one step over the zero block; elsewhere it is in
    its second, the output's buffer holds what the point before left, and the body leaves one step over that. The
    invariant and what is owed pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [outsAt_first m c t h0]
    iintro ⟨HΦ, Ho, ⟨%d0, H0⟩, ⟨%d1, H1⟩, ⟨%d2, H2⟩, ⟨%d3, H3⟩, ⟨%d4, H4⟩⟩
    iapply (kernelRun_first c (grid0.coords t) _ _ _ _ _ _ _ _ _ _ ((isFirstTile_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt_later m c t h0]
    simp only [before_4_later m c t h0]
    iintro ⟨HΦ, Ho, ⟨%d0, H0⟩, ⟨%d1, H1⟩, ⟨%d2, H2⟩, ⟨%d3, H3⟩, ⟨%d4, H4⟩⟩
    iapply (kernelRun_later c (grid0.coords t) _ _ _ _ _ _ _ _ _ _ (fun h => h0 ((isFirstTile_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiArrays.lean ====
/-
  The windows' arrays at the region's two ends, when two windows read one array.

  The kernel's five windows stand on FOUR buffers: windows 0 and 1 both read the stacked array. At the region's entry that
  buffer's full share is dealt to the two windows in halves; at its exit the halves — both at the contents the region
  found, since an input window's array is never written — are put back together. The norm column, the norm row and the
  result each belong to one window and are held whole throughout.
-/
import proofs.«156947_j65850438582800_1_alg».proof.Proof.KiData
import Idealize.ShloMosaic.Lib.ValueIdx
import Idealize.ShloMosaic.Lib.Pipeline.Regions

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The proof data's arrays, window by window: the stacked array twice at the two halves, the others whole. -/
theorem arrays_eq5 (c : Dev nD) (G : (w : Fin cfg0.W) → Buf (Elt F) ((cfg0.win w).arr.view.loc (c.tc : Thread nD τ))) :
    ((dats m 0 c).arrays G : sProp 𝕄)
      = iprop((((c.tc : Thread nD τ).loc main_v8) ↦{fullShare.left} G 0) ∗ (((c.tc : Thread nD τ).loc main_v8) ↦{fullShare.right} G 1)
          ∗ (((c.tc : Thread nD τ).loc main_v11) ↦{fullShare} G 2) ∗ (((c.tc : Thread nD τ).loc main_v12) ↦{fullShare} G 3)
          ∗ (((c.tc : Thread nD τ).loc main_v13) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The distinct buffers behind the windows' arrays, listed. -/
theorem arrBufs_eq4 (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v8) ↦{fullShare} W main_v8) ∗ (((c.tc : Thread nD τ).loc main_v11) ↦{fullShare} W main_v11)
          ∗ (((c.tc : Thread nD τ).loc main_v12) ↦{fullShare} W main_v12) ∗ (((c.tc : Thread nD τ).loc main_v13) ↦{fullShare} W main_v13)) := by
  unfold Pipeline.arrBufs
  exact bigSep_eq_bigSepL_of_eq [main_v8, main_v11, main_v12, main_v13] (by decide) (by decide) _

/-- ENTRY: the four buffers whole at the contents the region finds make the five windows' arrays at the proof data's
    entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq4, arrays_eq5]
  iintro ⟨H8, H11, H12, H13⟩
  ihave H := (pointsTo_share (Ix := Unit) (Name := ℕ) (U := UR sig nD τ) (Lvl := ℕ) (PosShare.mem_left_op_right fullShare)).1 $$ H8
  icases H with ⟨H8l, H8r⟩
  isplitl [H8l]; · iexact H8l
  isplitl [H8r]; · iexact H8r
  isplitl [H11]; · iexact H11
  isplitl [H12]; · iexact H12
  iexact H13

/-! ## After the region -/

/-- Core `c`'s buffers when the region is left: as the region found them, but for the result, which holds what the
    write-backs left. -/
def V1 (c : Dev nD) : Valuation τ sig (Elt F) :=
  Function.update (StableHlo.after hostOps0 (V₀ m c)) (Proc.devRef .tc main_v13) ((dats m 0 c).arrAt 4 cfg0.N)

theorem V1_v13 (c : Dev nD) : V1 m c (Proc.devRef .tc main_v13) = (dats m 0 c).arrAt 4 cfg0.N :=
  Function.update_self ..

theorem V1_of_ne (c : Dev nD) (b : Ref sig .tc) (hb : b ≠ main_v13) : V1 m c (Proc.devRef .tc b) = V m c b :=
  Function.update_of_ne (StableHlo.devRef_ne_of_ne hb) ..

/-- An input window's array is never written: it ends at the contents the region found. -/
theorem arrAt_in0 (c : Dev nD) : (dats m 0 c).arrAt 0 cfg0.N = V m c main_v8 := ((dats m 0 c).arrAt_in 0 rfl _).trans (A_eq m c 0)
theorem arrAt_in1 (c : Dev nD) : (dats m 0 c).arrAt 1 cfg0.N = V m c main_v8 := ((dats m 0 c).arrAt_in 1 rfl _).trans (A_eq m c 1)
theorem arrAt_in2 (c : Dev nD) : (dats m 0 c).arrAt 2 cfg0.N = V m c main_v11 := ((dats m 0 c).arrAt_in 2 rfl _).trans (A_eq m c 2)
theorem arrAt_in3 (c : Dev nD) : (dats m 0 c).arrAt 3 cfg0.N = V m c main_v12 := ((dats m 0 c).arrAt_in 3 rfl _).trans (A_eq m c 3)

/-- EXIT: the five windows' arrays at their final contents are the four buffers whole at the contents after the region. -/
theorem arrBufs_of_arrays (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c (Proc.devRef .tc b)) := by
  rw [arrBufs_eq4, arrays_eq5]
  rw [arrAt_in0, arrAt_in1, arrAt_in2, arrAt_in3, V1_v13, V1_of_ne m c main_v8 (by decide), V1_of_ne m c main_v11 (by decide),
    V1_of_ne m c main_v12 (by decide)]
  iintro ⟨H8l, H8r, H11, H12, H13⟩
  isplitl [H8l H8r]
  · iapply (pointsTo_share (Ix := Unit) (Name := ℕ) (U := UR sig nD τ) (Lvl := ℕ) (PosShare.mem_left_op_right fullShare)).2
    isplitl [H8l]; · iexact H8l
    iexact H8r
  isplitl [H11]; · iexact H11
  isplitl [H12]; · iexact H12
  iexact H13

/-- Off the windows' arrays the region changes nothing. -/
theorem unscopedRest_V1 (c : Dev nD) :
    (Pipeline.unscopedRest (Ix := Unit) (Name := ℕ) (U := UR sig nD τ) (Lvl := ℕ) spec0 c (fun b => V1 m c (Proc.devRef .tc b)) : sProp 𝕄)
      = Pipeline.unscopedRest (Ix := Unit) (Name := ℕ) (U := UR sig nD τ) (Lvl := ℕ) spec0 c (V m c) := by
  unfold Pipeline.unscopedRest
  refine bigSep_congr fun b hb => ?_
  have hne : b ≠ main_v13 := fun h => (Finset.mem_sdiff.mp hb).2 (h ▸ Finset.mem_image.mpr ⟨4, Finset.mem_univ _, rfl⟩)
  beta_reduce
  rw [V1_of_ne m c b hne]

end Cert.KernelIdeal.Hand

end
-- ==== Proof.KiLaunch.lean ====
/-
  The launch: @main as a host stretch, the kernel region, a host stretch.

  Seventeen host operations build the stacked array, the squared norms in two layouts and the alignment term; the region
  runs the pipeline; seventeen more reduce the region's result to the loss. Between segments the core holds its unscoped
  buffers whole at a valuation: as launched, then after the first stretch, then with the result's buffer at what the
  write-backs left, then after the second stretch. The region is entered by dealing the stacked array's buffer to the two
  windows that read it and left by putting it back together; every other buffer but the windows' goes round the region
  untouched. At the end the result buffer and the two arguments are read off the last valuation.
-/
import proofs.«156947_j65850438582800_1_alg».proof.Proof.KiOblig
import proofs.«156947_j65850438582800_1_alg».proof.Proof.KiArrays
import Idealize.ShloMosaic.Lib.Pipeline.Regions
import Idealize.ShloMosaic.Lib.StableHlo.RunLoop

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

/-- The host stretch before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The host stretch after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- The region: entered from what the first stretch left, left for the second. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V1 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Harr := (arrays_of_arrBufs m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave Hb := (arrBufs_of_arrays m c) $$ Ha
    imodintro
    isplitr [HO]
    · rw [← Pipeline.unscopedBufs_held c (V1 m c), Pipeline.unscopedBufs_split₀ cfgs 0 winFacts₀0.arr_unscoped c (fun b => V1 m c (Proc.devRef .tc b)), unscopedRest_V1]
      isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, at any float instance, from any memory with zero counters: every weakly fair execution of @main
    terminates, nothing faulting, and every final state has every unscoped buffer at what the second host stretch makes
    of the contents the region left. -/
theorem run_all : θ_run defs (onTc (τ := τ) (main (F := F))) ⟨m, fun _ => 0, ρ⟩
    (fun r => ∀ c : Dev nD, ∀ b ∈ Pipeline.ucRefs τ sig, r.2.mem ((c : Dev nD), b) = StableHlo.after hostOps1 (V1 m c) b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU (u₀ : UR sig nD τ) : sProp 𝕄)
          ⊢ BI.own (EP (initOf (Pipeline.cells (Pipeline.pin (pcfgs (F := F)) adm) cellOf_inj) (Pipeline.launchToks (Pipeline.pin (pcfgs (F := F)) adm) cellOf_inj))) := .rfl
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = StableHlo.after hostOps1 (V1 m c) b)
    (hfin := fun c s' => by
      unfold StableHlo.held
      iintro ⟨Hh, HSI⟩
      ihave Hr := (pointsTo_read_all (Pipeline.ucRefs τ sig) (fun b => ((c : Dev nD), b)) (fun b => StableHlo.after hostOps1 (V1 m c) b) s') $$ [Hh HSI]
      · isplitl [Hh] <;> iassumption
      icases Hr with ⟨%h, HSI⟩
      imodintro
      isplitr; · ipureintro; exact h
      iexact HSI)
    (hQ := fun _ h => h)

/-- info: 'Cert.KernelIdeal.Hand.run_all' depends on axioms: [propext, Classical.choice, Quot.sound] -/
#guard_msgs in #print axioms run_all

end Cert.KernelIdeal.Hand

end
-- ==== Proof.KiArgs.lean ====
/-
  No host operation writes an argument: each of the two argument buffers reaches the region, and the end, as launched.
  Read off the operations' composed valuation: every operation writes its own result buffer only.
-/
import proofs.«156947_j65850438582800_1_alg».proof.Proof.KiData
import Idealize.ShloMosaic.Lib.ValueIdx
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The operations before the region leave the arguments as launched; -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- and so do the operations after it, from any contents. -/
theorem tail_arg0 (W : Valuation τ sig (Elt F)) : StableHlo.after hostOps1 W (Proc.devRef .tc main_arg0) = W (Proc.devRef .tc main_arg0) := by
  after_results
theorem tail_arg1 (W : Valuation τ sig (Elt F)) : StableHlo.after hostOps1 W (Proc.devRef .tc main_arg1) = W (Proc.devRef .tc main_arg1) := by
  after_results

end Cert.KernelIdeal.Hand

end
-- ==== Proof.KiFrame.lean ====
/-
  The run read at the three buffers the claims speak of: the result, and the two arguments, which no host operation
  writes and which are no window's array.
-/
import proofs.«156947_j65850438582800_1_alg».proof.Proof.KiLaunch
import proofs.«156947_j65850438582800_1_alg».proof.Proof.KiArgs

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main terminates, nothing faulting, with the result buffer at what the second host
    stretch computes from the contents the region left, and both arguments as launched. -/
theorem run_main : θ_run defs (onTc (τ := τ) (main (F := F))) ⟨m, fun _ => 0, ρ⟩ (fun r => ∀ c : Dev nD,
      r.2.mem ((c.tc : Thread nD τ).loc main_v26) = StableHlo.after hostOps1 (V1 m c) (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (StableHlo.devRef_mem_ucRefs main_v26 rfl),
     (h c _ (StableHlo.devRef_mem_ucRefs main_arg0 rfl)).trans ((tail_arg0 (V1 m c)).trans ((V1_of_ne m c main_arg0 (by decide)).trans (V_arg0 m c))),
     (h c _ (StableHlo.devRef_mem_ucRefs main_arg1 rfl)).trans ((tail_arg1 (V1 m c)).trans ((V1_of_ne m c main_arg1 (by decide)).trans (V_arg1 m c)))⟩)
    (run_all m ρ)

/-- The frame: the program runs to the end and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.KernelIdeal.Hand

end
-- ==== Proof.Spec.lean ====
/-
  What both programs compute, as one function of the two argument arrays over the extended reals.

  For a matrix A (8192 rows of 512 entries) write s_i = Σ_k A[i,k]² for a row's squared norm and
  g_ij = Σ_k A[i,k]·A[j,k] for the Gram entry. The pairwise term is
      e_ij = exp(−2 · max(s_i + s_j − 2·g_ij, 0)),
  the uniformity of A is  u(A) = log((Σ_i Σ_j e_ij − 8192) / 67100672),  and the alignment of X and Y is the mean over
  the rows of Σ_k (X[i,k] − Y[i,k])². The loss is  align(X, Y) + ½·(u(X) + u(Y)).
  The float literals stay the words the programs print: the same word on both sides is never evaluated.
-/
import Idealize.ShloMosaic.PureOps.Ideal
import Idealize.ShloMosaic.Lib.ValueIdx

noncomputable section

open scoped BigOperators

namespace Cert.PairSpec

open Idealize.ShloMosaic Idealize.ShloMosaic.ValueIdx

/-- An argument array at the ideal instance: 8192 rows of 512 extended reals. -/
abbrev Mat : Type := (⟨2, ![8192, 512]⟩ : Shape).Idx → EReal

/-- The literals, as the words both programs print. -/
abbrev cTwo : EReal := Ideal.ofBits .f32 0x40000000#32
abbrev cNegTwo : EReal := Ideal.ofBits .f32 0xC0000000#32
abbrev cZero : EReal := Ideal.ofBits .f32 0x00000000#32
abbrev cHalf : EReal := Ideal.ofBits .f32 0x3F000000#32
abbrev cN : EReal := Ideal.ofBits .f32 0x46000000#32
abbrev cPairs2 : EReal := Ideal.ofBits .f32 0x4C7FF800#32

/-- A row's squared norm. -/
def sqn (A : Mat) (i : Fin 8192) : EReal := ∑ k : Fin 512, A (ix2 i k) * A (ix2 i k)

/-- A Gram entry. -/
def gram (A : Mat) (i j : Fin 8192) : EReal := ∑ k : Fin 512, A (ix2 i k) * A (ix2 j k)

/-- The pairwise term: exp(−2 · max(s_i + s_j − 2 g_ij, 0)). -/
def pairTerm (A : Mat) (i j : Fin 8192) : EReal :=
  Ideal.exp (cNegTwo * max (sqn A i + sqn A j - cTwo * gram A i j) cZero)

/-- Row i's sum of the pairwise terms. -/
def rowSum (A : Mat) (i : Fin 8192) : EReal := ∑ j : Fin 8192, pairTerm A i j

/-- The uniformity term of one array. -/
def uniform (A : Mat) : EReal :=
  Ideal.log (Ideal.div ((∑ i : Fin 8192, rowSum A i) - cN) cPairs2)

/-- The alignment term: the mean over the rows of the squared distance. -/
def align (X Y : Mat) : EReal :=
  Ideal.div (∑ i : Fin 8192, ∑ k : Fin 512, (X (ix2 i k) - Y (ix2 i k)) * (X (ix2 i k) - Y (ix2 i k))) cN

/-- The loss. -/
def loss (X Y : Mat) : EReal := align X Y + cHalf * (uniform X + uniform Y)

/-! ## The same terms as the kernel's program lays them out

The kernel stacks the two arrays into one of shape [2, 8192, 512] and hands its body the squared norms twice, as a
column [2, 8192, 1] and as a row [2, 1, 8192]; the region's result has shape [2, 8192, 1]. -/

abbrev Stack : Type := (⟨3, ![2, 8192, 512]⟩ : Shape).Idx → EReal
abbrev NormCol : Type := (⟨3, ![2, 8192, 1]⟩ : Shape).Idx → EReal
abbrev NormRow : Type := (⟨3, ![2, 1, 8192]⟩ : Shape).Idx → EReal

/-- Array b of the stack: X for b = 0, Y for b = 1. -/
def stackAt (X Y : Mat) (b : Fin 2) : Mat := if b.val = 0 then X else Y

/-- The pairwise term read off the stacked array and the two layouts of the norms. -/
def tileTerm (a8 : Stack) (a11 : NormCol) (a12 : NormRow) (b : Fin 2) (i j : Fin 8192) : EReal :=
  Ideal.exp (cNegTwo * max (a11 (ix3 b i 0) + a12 (ix3 b 0 j) - cTwo * ∑ k : Fin 512, a8 (ix3 b i k) * a8 (ix3 b j k)) cZero)

/-- Entry (b, i, 0) of the region's result: row i's sum of the pairwise terms of array b. -/
def outEntry (a8 : Stack) (a11 : NormCol) (a12 : NormRow) (b : Fin 2) (i : Fin 8192) : EReal :=
  ∑ j : Fin 8192, tileTerm a8 a11 a12 b i j

/-- What the host operations after the region make of the region's result `out` and the alignment term `v5`. -/
def tailLoss (v5 : EReal) (out : NormCol) : EReal :=
  v5 + cHalf * (Ideal.log (Ideal.div ((∑ i : Fin 8192, out (ix3 0 i 0)) - cN) cPairs2)
    + Ideal.log (Ideal.div ((∑ i : Fin 8192, out (ix3 1 i 0)) - cN) cPairs2))

/-- Every entry is a real number. -/
def Finite (A : Mat) : Prop := ∀ i, ∃ r : ℝ, A i = (r : EReal)

end Cert.PairSpec

end
-- ==== Proof.KiHost.lean ====
/-
  What the host operations before the region leave in the arrays the kernel reads, and that they leave the arguments alone.

  The stacked array is X over Y; the norm column and the norm row are both the rows' squared norms of the stacked array
  (one reduction, two layouts); and the alignment term is already complete before the region: the mean over the rows of
  the squared distance.
-/
import proofs.«156947_j65850438582800_1_alg».proof.Proof.KiData
import proofs.«156947_j65850438582800_1_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

section AtIdeal
variable (m : (ℓ : Loc nD τ sig) → Buf (Elt Ideal) ℓ)

/-- The two argument arrays on core c. -/
abbrev argX (c : Dev nD) : Mat := m ((c : Thread nD τ).loc main_arg0)
abbrev argY (c : Dev nD) : Mat := m ((c : Thread nD τ).loc main_arg1)

/-! ## The operations' terms -/

/-- An argument given a leading unit axis. -/
private abbrev lead (A : Mat) : S1x8192x512.Idx → EReal :=
  broadcastInDim S1x8192x512 ![1, 2] bcast_S8192x512_S1x8192x512_1_2 A

/-- The stacked array: the two arguments, each given a leading unit axis, laid end to end along it. -/
private abbrev stackT (X Y : Mat) : S2x8192x512.Idx → EReal :=
  concatenate S2x8192x512 0 [⟨S1x8192x512, lead X⟩, ⟨S1x8192x512, lead Y⟩] concatenates_S1x8192x512_S1x8192x512_S2x8192x512_d0

/-- The rows' squared norms of a stacked array: the sum along the last axis of its square. -/
private abbrev normT (A : S2x8192x512.Idx → EReal) : S2x8192.Idx → EReal :=
  Host.reduceAdd (F := Ideal) (φ := .f32) (mulf (F := Ideal) (φ := .f32) A A) (constant (F := Ideal) S_ .f32 0x00000000#32) reducesTo_S2x8192x512_S2x8192_d2 h_S_

/-- The mean over the rows of the squared distance, as the operations compute it: two single-axis sums and a division. -/
private abbrev alignT (X Y : Mat) : S_.Idx → EReal :=
  Host.divf (F := Ideal) (φ := .f32)
    (Host.reduceAdd (F := Ideal) (φ := .f32)
      (Host.reduceAdd (F := Ideal) (φ := .f32) (mulf (F := Ideal) (φ := .f32) (subf (F := Ideal) (φ := .f32) X Y) (subf (F := Ideal) (φ := .f32) X Y))
        (constant (F := Ideal) S_ .f32 0x00000000#32) reducesTo_S8192x512_S8192_d1 h_S_)
      (constant (F := Ideal) S_ .f32 0x00000000#32) reducesTo_S8192_S_d0 h_S_)
    (constant (F := Ideal) S_ .f32 0x46000000#32)

private theorem V_v8_eq (c : Dev nD) : V m c main_v8 = stackT (argX m c) (argY m c) := by
  show StableHlo.after hostOps0 _ (Proc.devRef .tc main_v8) = _
  after_results

private theorem V_v11_eq (c : Dev nD) :
    V m c main_v11 = broadcastInDim S2x8192x1 ![0, 1] bcast_S2x8192_S2x8192x1_0_1 (normT (stackT (argX m c) (argY m c))) := by
  show StableHlo.after hostOps0 _ (Proc.devRef .tc main_v11) = _
  after_results

private theorem V_v12_eq (c : Dev nD) :
    V m c main_v12 = broadcastInDim S2x1x8192 ![0, 2] bcast_S2x8192_S2x1x8192_0_2 (normT (stackT (argX m c) (argY m c))) := by
  show StableHlo.after hostOps0 _ (Proc.devRef .tc main_v12) = _
  after_results

private theorem V_v5_eq (c : Dev nD) : V m c main_v5 = alignT (argX m c) (argY m c) := by
  show StableHlo.after hostOps0 _ (Proc.devRef .tc main_v5) = _
  after_results

/-! ## The terms read at an index -/

/-- An argument given a leading unit axis, at (0, i, k), is the argument at (i, k). -/
private theorem lead_apply (A : Mat) (i : Fin 8192) (k : Fin 512) : lead A (ix3 (0 : Fin 1) i k) = A (ix2 i k) := by
  refine broadcastInDim_apply _ _ A (ix3 (0 : Fin 1) i k) (ix2 i k) ?_
  intro a
  match a with
  | ⟨0, _⟩ => rfl
  | ⟨1, _⟩ => rfl

/-- The stacked array at (b, i, k): X's entry for b = 0, Y's for b = 1. -/
private theorem stackT_apply (X Y : Mat) (b : Fin 2) (i : Fin 8192) (k : Fin 512) :
    stackT X Y (ix3 b i k) = stackAt X Y b (ix2 i k) := by
  match b with
  | ⟨0, _⟩ =>
    refine (concatenate_pair_apply_left (0 : Fin 3) (lead X) (lead Y) concatenates_S1x8192x512_S1x8192x512_S2x8192x512_d0
      (ix3 (0 : Fin 2) i k) rfl (ix3 (0 : Fin 1) i k) ?_).trans ?_
    · intro a
      match a with
      | ⟨0, _⟩ => rfl
      | ⟨1, _⟩ => rfl
      | ⟨2, _⟩ => rfl
    · exact lead_apply X i k
  | ⟨1, _⟩ =>
    refine (concatenate_pair_apply_right (0 : Fin 3) (lead X) (lead Y) concatenates_S1x8192x512_S1x8192x512_S2x8192x512_d0
      (ix3 (1 : Fin 2) i k) rfl rfl (ix3 (0 : Fin 1) i k) ?_ ?_).trans ?_
    · intro a ha
      match a with
      | ⟨0, _⟩ => exact absurd rfl ha
      | ⟨1, _⟩ => rfl
      | ⟨2, _⟩ => rfl
    · rfl
    · exact lead_apply Y i k

/-- The rows' squared norms of a stacked array at (b, i): the sum over k of the square of its entry (b, i, k). -/
private theorem normT_apply (A : S2x8192x512.Idx → EReal) (b : Fin 2) (i : Fin 8192) :
    normT A (ix2 b i) = ∑ k : Fin 512, A (ix3 b i k) * A (ix3 b i k) := by
  simp only [Host.reduceAdd, Ideal.hostReduceAdd_def]
  rw [Ideal.hostReduceAdd_single reducesTo_S2x8192x512_S2x8192_d2 (by decide)]
  rw [constant_apply, Ideal.ofBits_zero_f32, zero_add]
  refine Finset.sum_congr rfl fun k _ => ?_
  exact congrArg (fun j => A j * A j) (funext fun a => Fin.ext (by
    match a with
    | ⟨0, _⟩ => rfl
    | ⟨1, _⟩ => rfl
    | ⟨2, _⟩ => rfl))

/-- The alignment term as the operations compute it, at its one index: the sum over the rows of the sum along a row of the
    squared difference, divided by the number of rows. -/
private theorem alignT_apply (X Y : Mat) : alignT X Y ix0 = align X Y := by
  show Ideal.div _ _ = Ideal.div _ _
  refine congrArg (Ideal.div · cN) ?_
  simp only [Host.reduceAdd, Ideal.hostReduceAdd_def]
  rw [Ideal.hostReduceAdd_total reducesTo_S8192_S_d0 (fun b => b.elim0)]
  rw [constant_apply, Ideal.ofBits_zero_f32, zero_add]
  refine (Equiv.sum_comp (idxEquiv1 (n := 8192)).symm _).symm.trans ?_
  refine Finset.sum_congr rfl fun i _ => ?_
  show Ideal.hostReduceAdd _ _ _ (ix1 i) = _
  rw [Ideal.hostReduceAdd_single reducesTo_S8192x512_S8192_d1 (by decide), zero_add]
  refine Finset.sum_congr rfl fun k _ => ?_
  exact congrArg (fun j => (X j - Y j) * (X j - Y j)) (funext fun a => Fin.ext (by
    match a with
    | ⟨0, _⟩ => rfl
    | ⟨1, _⟩ => rfl))

theorem V_v8_apply (c : Dev nD) (b : Fin 2) (i : Fin 8192) (k : Fin 512) :
    V m c main_v8 (ix3 b i k) = stackAt (argX m c) (argY m c) b (ix2 i k) :=
  (congrFun (V_v8_eq m c) (ix3 b i k)).trans (stackT_apply (argX m c) (argY m c) b i k)

/-- The rows' squared norms of the stacked array, at (b, i): the squared norm of row i of array b. -/
private theorem normT_stack (X Y : Mat) (b : Fin 2) (i : Fin 8192) :
    normT (stackT X Y) (ix2 b i) = sqn (stackAt X Y b) i := by
  rw [normT_apply]
  unfold sqn
  refine Finset.sum_congr rfl fun k _ => ?_
  rw [stackT_apply]

theorem V_v11_apply (c : Dev nD) (b : Fin 2) (i : Fin 8192) :
    V m c main_v11 (ix3 b i 0) = sqn (stackAt (argX m c) (argY m c) b) i := by
  refine (congrFun (V_v11_eq m c) (ix3 b i 0)).trans ?_
  refine (broadcastInDim_apply _ _ _ (ix3 b i (0 : Fin 1)) (ix2 b i) ?_).trans (normT_stack (argX m c) (argY m c) b i)
  intro a
  match a with
  | ⟨0, _⟩ => rfl
  | ⟨1, _⟩ => rfl

theorem V_v12_apply (c : Dev nD) (b : Fin 2) (j : Fin 8192) :
    V m c main_v12 (ix3 b 0 j) = sqn (stackAt (argX m c) (argY m c) b) j := by
  refine (congrFun (V_v12_eq m c) (ix3 b 0 j)).trans ?_
  refine (broadcastInDim_apply _ _ _ (ix3 b (0 : Fin 1) j) (ix2 b j) ?_).trans (normT_stack (argX m c) (argY m c) b j)
  intro a
  match a with
  | ⟨0, _⟩ => rfl
  | ⟨1, _⟩ => rfl

theorem V_v5_apply (c : Dev nD) : V m c main_v5 ix0 = align (argX m c) (argY m c) :=
  (congrFun (V_v5_eq m c) ix0).trans (alignT_apply (argX m c) (argY m c))
end AtIdeal

end Cert.KernelIdeal.Hand

end
-- ==== Proof.KiTail.lean ====
/-
  The host operations after the region, from any valuation of the buffers: the result is the alignment term plus half
  the sum of the two logarithms, each of (the sum of one array's row sums − 8192) / 67100672; and they write no argument.
-/
import proofs.«156947_j65850438582800_1_alg».proof.Proof.KiData
import proofs.«156947_j65850438582800_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

/-- The sum over the two trailing axes of a [2, 8192, 1] array at b: the initial value plus the sum over the middle
    axis at (b, ·, 0), the last axis having extent one. -/
private theorem reduce_rows (h : S2x8192x1.ReducesTo [1, 2] S2) (x : NormCol) (init : EReal) (b : Fin 2) :
    Ideal.hostReduceAdd h x init (ix1 b) = init + ∑ r : Fin 8192, x (ix3 b r 0) := by
  unfold Ideal.hostReduceAdd
  refine congrArg (init + ·) (Eq.symm ?_)
  refine Finset.sum_nbij' (fun r : Fin 8192 => (ix3 b r 0 : S2x8192x1.Idx)) (fun i => i 1) ?_ ?_ ?_ ?_ ?_
  · intro r _
    rw [Finset.mem_filter]
    refine ⟨Finset.mem_univ _, ?_⟩
    funext d
    match d with
    | ⟨0, _⟩ => exact Fin.ext (h.drop_apply_val_of_eq _ 0 0)
  · intro i _
    exact Finset.mem_univ _
  · intro r _
    rfl
  · intro i hi
    rw [Finset.mem_filter] at hi
    have h0 : (i 0).val = b.val :=
      (h.drop_apply_val_of_eq i 0 0).symm.trans (congrArg Fin.val (congrFun hi.2 0))
    have h2 : (i 2).val < 1 := (i 2).isLt
    funext a
    match a with
    | ⟨0, _⟩ => exact Fin.ext h0.symm
    | ⟨1, _⟩ => rfl
    | ⟨2, _⟩ => exact Fin.ext (by show 0 = (i 2).val; omega)
  · intro r _
    rfl

/-- The two logarithms as the operations lay them out: an array of two. -/
private def logs (out : NormCol) : S2.Idx → EReal :=
  Host.log (F := Ideal) (φ := .f32) (Host.divf (F := Ideal) (φ := .f32)
    (subf (Host.reduceAdd (F := Ideal) (φ := .f32) out (constant (F := Ideal) S_ .f32 0x00000000#32) reducesTo_S2x8192x1_S2_d1_2 h_S_)
      (broadcastInDim S2 ![] bcast_S_S2 (constant (F := Ideal) S_ .f32 0x46000000#32)))
    (broadcastInDim S2 ![] bcast_S_S2 (constant (F := Ideal) S_ .f32 0x4C7FF800#32)))

/-- Entry b: the logarithm of (the sum of array b's entries − 8192) / 67100672. -/
private theorem logs_apply (out : NormCol) (b : Fin 2) :
    logs out (ix1 b) = Ideal.log (Ideal.div ((∑ i : Fin 8192, out (ix3 b i 0)) - cN) cPairs2) := by
  unfold logs
  show Ideal.log (Ideal.div (Ideal.hostReduceAdd reducesTo_S2x8192x1_S2_d1_2 out (Ideal.ofBits .f32 0x00000000#32) (ix1 b) - cN) cPairs2) = _
  rw [reduce_rows, Ideal.ofBits_zero_f32, zero_add]

/-- An array of two read through the slice at b and the cast of its one entry to a scalar. -/
private theorem slice0_apply (y : S2.Idx → EReal) :
    shapeCast S_ (extractStridedSlice S1 ![0] y slices_S2_S1_0) shapeCasts_S1_S_ ix0 = y (ix1 0) := by
  rw [shapeCast_apply _ shapeCasts_S1_S_ ix0 (ix1 (0 : Fin 1)) rfl]
  exact extractStridedSlice_apply _ y slices_S2_S1_0 _ (ix1 0) fun a => by
    match a with
    | ⟨0, _⟩ => rfl
private theorem slice1_apply (y : S2.Idx → EReal) :
    shapeCast S_ (extractStridedSlice S1 ![1] y slices_S2_S1_1) shapeCasts_S1_S_ ix0 = y (ix1 1) := by
  rw [shapeCast_apply _ shapeCasts_S1_S_ ix0 (ix1 (0 : Fin 1)) rfl]
  exact extractStridedSlice_apply _ y slices_S2_S1_1 _ (ix1 1) fun a => by
    match a with
    | ⟨0, _⟩ => rfl

/-- The last operations on the two logarithms: the alignment term plus half their sum. -/
private theorem tail_eq (v5 : EReal) (out : NormCol) :
    v5 + cHalf
      * (shapeCast S_ (extractStridedSlice S1 ![0] (logs out) slices_S2_S1_0) shapeCasts_S1_S_ ix0
        + shapeCast S_ (extractStridedSlice S1 ![1] (logs out) slices_S2_S1_1) shapeCasts_S1_S_ ix0) = tailLoss v5 out := by
  rw [slice0_apply, slice1_apply, logs_apply, logs_apply]
  rfl

/-- The program's result from the region's result and the alignment term. -/
theorem tail_value (W : Valuation τ sig (Elt Ideal)) :
    StableHlo.after hostOps1 W (Proc.devRef .tc main_v26) ix0
      = tailLoss (W (Proc.devRef .tc main_v5) ix0) (W (Proc.devRef .tc main_v13)) := by
  after_results
  exact tail_eq _ _

end Cert.KernelIdeal.Hand

end
-- ==== Proof.KiBlocks.lean ====
/-
  Where each window's block sits in its array, and which point's staging contents each entry of the result is.

  Point t of the grid is (b, i, j) = (t / 128, t / 16 mod 8, t mod 16). Window 0's block at t is rows i·1024 … of
  array b of the stack; window 1's is rows j·512 … of the same array; window 2's the same rows as window 0 of the norm
  column; window 3's the same columns as window 1's rows of the norm row. The result's block (b, i) is written back once,
  after the last tile j = 15, so an entry of the final array is what the staging buffer held after that point.
-/
import proofs.«156947_j65850438582800_1_alg».proof.Proof.KiData
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The point's array, -/
def pB (t : Fin cfg0.N) : Fin 2 := ⟨t.val / 128, by have := t.isLt; have h : cfg0.N = 256 := N_0; omega⟩
/-- the array row of its row r, -/
def pRow (t : Fin cfg0.N) (r : Fin 1024) : Fin 8192 := ⟨t.val / 16 % 8 * 1024 + r.val, by have := r.isLt; omega⟩
/-- and the array row of its tile's row jj. -/
def pCol (t : Fin cfg0.N) (jj : Fin 512) : Fin 8192 := ⟨t.val % 16 * 512 + jj.val, by have := jj.isLt; omega⟩

/-- Window 0's block index at point t is (b, i, 0). -/
private theorem idx0 : ∀ t : Fin cfg0.N, win0_0.index t 0 = t.val / 128 ∧ win0_0.index t 1 = t.val / 16 % 8 ∧ win0_0.index t 2 = 0 :=
  (by decide +kernel : ∀ t : Fin grid0.N, win0_0.index t 0 = t.val / 128 ∧ win0_0.index t 1 = t.val / 16 % 8 ∧ win0_0.index t 2 = 0)
/-- Window 1's is (b, j, 0). -/
private theorem idx1 : ∀ t : Fin cfg0.N, win0_1.index t 0 = t.val / 128 ∧ win0_1.index t 1 = t.val % 16 ∧ win0_1.index t 2 = 0 :=
  (by decide +kernel : ∀ t : Fin grid0.N, win0_1.index t 0 = t.val / 128 ∧ win0_1.index t 1 = t.val % 16 ∧ win0_1.index t 2 = 0)
/-- Window 2's is (b, i, 0). -/
private theorem idx2 : ∀ t : Fin cfg0.N, win0_2.index t 0 = t.val / 128 ∧ win0_2.index t 1 = t.val / 16 % 8 ∧ win0_2.index t 2 = 0 :=
  (by decide +kernel : ∀ t : Fin grid0.N, win0_2.index t 0 = t.val / 128 ∧ win0_2.index t 1 = t.val / 16 % 8 ∧ win0_2.index t 2 = 0)
/-- Window 3's is (b, 0, j). -/
private theorem idx3 : ∀ t : Fin cfg0.N, win0_3.index t 0 = t.val / 128 ∧ win0_3.index t 1 = 0 ∧ win0_3.index t 2 = t.val % 16 :=
  (by decide +kernel : ∀ t : Fin grid0.N, win0_3.index t 0 = t.val / 128 ∧ win0_3.index t 1 = 0 ∧ win0_3.index t 2 = t.val % 16)
/-- The result's is (b, i, 0). -/
private theorem idx4 : ∀ t : Fin cfg0.N, win0_4.index t 0 = t.val / 128 ∧ win0_4.index t 1 = t.val / 16 % 8 ∧ win0_4.index t 2 = 0 :=
  (by decide +kernel : ∀ t : Fin grid0.N, win0_4.index t 0 = t.val / 128 ∧ win0_4.index t 1 = t.val / 16 % 8 ∧ win0_4.index t 2 = 0)

theorem iblk0_apply (c : Dev nD) (t : Fin cfg0.N) (r : Fin 1024) (k : Fin 512) :
    iblk m c 0 t (ix3 0 r k) = V m c main_v8 (ix3 (pB t) (pRow t r) k) := by
  obtain ⟨e0, e1, e2⟩ := idx0 t
  show V m c main_v8 (((cfg0.win 0).blk t).view.emb (ix3 0 r k)) = V m c main_v8 (ix3 (pB t) (pRow t r) k)
  congr 1
  funext a
  apply Fin.ext
  match a with
  | ⟨0, _⟩ => show win0_0.index t 0 * 1 + 1 * (0 : Fin 1).val = t.val / 128; rw [e0]; simp
  | ⟨1, _⟩ => show win0_0.index t 1 * 1024 + 1 * r.val = t.val / 16 % 8 * 1024 + r.val; rw [e1]; omega
  | ⟨2, _⟩ => show win0_0.index t 2 * 512 + 1 * k.val = k.val; rw [e2]; omega

theorem iblk1_apply (c : Dev nD) (t : Fin cfg0.N) (jj : Fin 512) (k : Fin 512) :
    iblk m c 1 t (ix3 0 jj k) = V m c main_v8 (ix3 (pB t) (pCol t jj) k) := by
  obtain ⟨e0, e1, e2⟩ := idx1 t
  show V m c main_v8 (((cfg0.win 1).blk t).view.emb (ix3 0 jj k)) = V m c main_v8 (ix3 (pB t) (pCol t jj) k)
  congr 1
  funext a
  apply Fin.ext
  match a with
  | ⟨0, _⟩ => show win0_1.index t 0 * 1 + 1 * (0 : Fin 1).val = t.val / 128; rw [e0]; simp
  | ⟨1, _⟩ => show win0_1.index t 1 * 512 + 1 * jj.val = t.val % 16 * 512 + jj.val; rw [e1]; omega
  | ⟨2, _⟩ => show win0_1.index t 2 * 512 + 1 * k.val = k.val; rw [e2]; omega

theorem iblk2_apply (c : Dev nD) (t : Fin cfg0.N) (r : Fin 1024) :
    iblk m c 2 t (ix3 0 r 0) = V m c main_v11 (ix3 (pB t) (pRow t r) 0) := by
  obtain ⟨e0, e1, e2⟩ := idx2 t
  show V m c main_v11 (((cfg0.win 2).blk t).view.emb (ix3 0 r 0)) = V m c main_v11 (ix3 (pB t) (pRow t r) 0)
  congr 1
  funext a
  apply Fin.ext
  match a with
  | ⟨0, _⟩ => show win0_2.index t 0 * 1 + 1 * (0 : Fin 1).val = t.val / 128; rw [e0]; simp
  | ⟨1, _⟩ => show win0_2.index t 1 * 1024 + 1 * r.val = t.val / 16 % 8 * 1024 + r.val; rw [e1]; omega
  | ⟨2, _⟩ => show win0_2.index t 2 * 1 + 1 * (0 : Fin 1).val = (0 : Fin 1).val; rw [e2]; simp

theorem iblk3_apply (c : Dev nD) (t : Fin cfg0.N) (jj : Fin 512) :
    iblk m c 3 t (ix3 0 0 jj) = V m c main_v12 (ix3 (pB t) 0 (pCol t jj)) := by
  obtain ⟨e0, e1, e2⟩ := idx3 t
  show V m c main_v12 (((cfg0.win 3).blk t).view.emb (ix3 0 0 jj)) = V m c main_v12 (ix3 (pB t) 0 (pCol t jj))
  congr 1
  funext a
  apply Fin.ext
  match a with
  | ⟨0, _⟩ => show win0_3.index t 0 * 1 + 1 * (0 : Fin 1).val = t.val / 128; rw [e0]; simp
  | ⟨1, _⟩ => show win0_3.index t 1 * 1 + 1 * (0 : Fin 1).val = (0 : Fin 1).val; rw [e1]; simp
  | ⟨2, _⟩ => show win0_3.index t 2 * 512 + 1 * jj.val = t.val % 16 * 512 + jj.val; rw [e2]; omega

/-- The last point of block (b, ib): tile 15. -/
def lastPt (b : Fin 2) (ib : Fin 8) : Fin cfg0.N := ⟨(b.val * 8 + ib.val) * 16 + 15, by
  have := b.isLt; have := ib.isLt; have h : cfg0.N = 256 := N_0; omega⟩

/-- The staging contents depend on the point's number and the entry only. -/
private theorem outsAt_congr (c : Dev nD) {n n' : ℕ} (hn : n < cfg0.N) (hn' : n' < cfg0.N) (h : n = n')
    {y y' : S1x1024x1.Idx} (hy : y = y') : outsAt m c n hn y = outsAt m c n' hn' y' := by
  subst h; subst hy; rfl

/-- The result as one array: entry (b, x, 0) is what the staging buffer held after the last tile of block
    (b, x / 1024), at its row x mod 1024. -/
private def outArr (c : Dev nD) : S2x8192x1.Idx → Elt F .f32 := fun i =>
  outsAt m c (lastPt ⟨(i 0).val, (i 0).isLt⟩ ⟨(i 1).val / 1024, by have h : (i 1).val < 8192 := (i 1).isLt; omega⟩).val
    (lastPt ⟨(i 0).val, (i 0).isLt⟩ ⟨(i 1).val / 1024, by have h : (i 1).val < 8192 := (i 1).isLt; omega⟩).isLt
    (ix3 0 ⟨(i 1).val % 1024, Nat.mod_lt _ (by norm_num)⟩ 0)

/-- What a point with tile 15 writes back is its block of that array. -/
private theorem flushed4_eq (c : Dev nD) (t : Fin cfg0.N) (hf : (cfg0.win 4).flush t = true) :
    (dats m 0 c).flushed 4 t = ((cfg0.win 4).blk t).view.read (Elt F) (outArr m c) := by
  have h15 : t.val % 16 = 15 := (flush0_4 t).mp hf
  obtain ⟨e0, e1, e2⟩ := idx4 t
  show (cfg0.win 4).cut (grid0.coords t) ((dats m 0 c).after 4 t) = _
  rw [after_4]
  funext y
  have y0 : (y 0).val < 1 := (y 0).isLt
  have y1 : (y 1).val < 1024 := (y 1).isLt
  have y2 : (y 2).val < 1 := (y 2).isLt
  have ht : t.val < 256 := by have := t.isLt; have h : cfg0.N = 256 := N_0; omega
  show outsAt m c t.val t.isLt ((cfg0.win 4).xinj (grid0.coords t) y) = outArr m c (((cfg0.win 4).blk t).view.emb y)
  unfold outArr
  refine outsAt_congr m c _ _ ?_ ?_
  · show t.val = ((win0_4.index t 0 * 1 + 1 * (y 0).val) * 8 + (win0_4.index t 1 * 1024 + 1 * (y 1).val) / 1024) * 16 + 15
    rw [e0, e1]; omega
  · funext a
    apply Fin.ext
    match a with
    | ⟨0, _⟩ => show (y 0).val = 0; omega
    | ⟨1, _⟩ => show (y 1).val = (win0_4.index t 1 * 1024 + 1 * (y 1).val) % 1024; omega
    | ⟨2, _⟩ => show (y 2).val = 0; omega

/-- An entry of the result lies in a point's block iff each coordinate lies in the block's range. -/
private theorem mem_blk4 (t : Fin cfg0.N) (i : S2x8192x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v13).slice (win0_4.rect t)).set ↔ _
  rw [View.set_slice_whole, Rect.mem_set_unit]
  exact Iff.rfl

/-- An entry of the result after the run is what the staging buffer held after its block's last tile. -/
theorem arrAt_out_apply (c : Dev nD) (b : Fin 2) (ib : Fin 8) (r : Fin 1024) :
    (dats m 0 c).arrAt 4 cfg0.N (ix3 b ⟨ib.val * 1024 + r.val, by have := ib.isLt; have := r.isLt; omega⟩ 0)
      = outsAt m c (lastPt b ib).val (lastPt b ib).isLt (ix3 0 r 0) := by
  have hb := b.isLt
  have hib := ib.isLt
  have hr := r.isLt
  have hv : (lastPt b ib).val = (b.val * 8 + ib.val) * 16 + 15 := rfl
  have hf : (cfg0.win 4).flush (lastPt b ib) = true := (flush0_4 _).mpr (by rw [hv]; omega)
  obtain ⟨e0, e1, e2⟩ := idx4 (lastPt b ib)
  have hmem : (ix3 b (⟨ib.val * 1024 + r.val, by omega⟩ : Fin 8192) (0 : Fin 1) : S2x8192x1.Idx) ∈ ((cfg0.win 4).blk (lastPt b ib)).view.set := by
    rw [mem_blk4]
    intro a
    match a with
    | ⟨0, _⟩ => show win0_4.index (lastPt b ib) 0 * 1 ≤ b.val ∧ b.val < win0_4.index (lastPt b ib) 0 * 1 + 1; rw [e0, hv]; omega
    | ⟨1, _⟩ => show win0_4.index (lastPt b ib) 1 * 1024 ≤ ib.val * 1024 + r.val ∧ ib.val * 1024 + r.val < win0_4.index (lastPt b ib) 1 * 1024 + 1024; rw [e1, hv]; omega
    | ⟨2, _⟩ => show win0_4.index (lastPt b ib) 2 * 1 ≤ 0 ∧ 0 < win0_4.index (lastPt b ib) 2 * 1 + 1; rw [e2]; omega
  refine ((dats m 0 c).arrAt_apply_of_mem 4 (outArr m c) (flushed4_eq m c) cfg0.N (lastPt b ib) _ (lastPt b ib).isLt hf hmem).trans ?_
  unfold outArr
  refine outsAt_congr m c _ _ ?_ ?_
  · show (b.val * 8 + (ib.val * 1024 + r.val) / 1024) * 16 + 15 = (b.val * 8 + ib.val) * 16 + 15
    omega
  · funext a
    apply Fin.ext
    match a with
    | ⟨0, _⟩ => rfl
    | ⟨1, _⟩ => show (ib.val * 1024 + r.val) % 1024 = r.val; omega
    | ⟨2, _⟩ => rfl

end Cert.KernelIdeal.Hand

end
-- ==== Proof.KiPayload.lean ====
/-
  One step of the accumulation read at an index, over the extended reals.

  Row r of the stored block is what the block held there plus the sum, over the 512 rows jj of the tile, of
  exp(−2·max(s_r + s_jj − 2·Σ_k x0[r,k]·x1[jj,k], 0)): the truncations to bf16 are the identity at this instance, the
  matrix product into a zero accumulator is the plain sum over k, the lane reduction the plain sum over jj.
-/
import proofs.«156947_j65850438582800_1_alg».proof.Proof.KiData
import proofs.«156947_j65850438582800_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

/-! ## The layout operations at explicit coordinates -/

/-- A column [a] viewed [a, 1] reads, at (i, u), the vector at i: both positions are i in row-major order. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column at (p, 0): the unit axis reads 0, the row axis itself. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum -/

/-- The sum over the lanes of a [1024, 512] tile reads, at row r, the sum over the 512 lanes of the tile's row r. -/
private theorem laneSum_apply (v : FVec Ideal S1024x512 .f32) (hφ : FKind.Formats .f32)
    (hacc : (0x00000000#32 : BitVec 32) = 0x00000000#32) (r : Fin 1024) :
    multiReduction (F := Ideal) .add [1] S1024 v 0x00000000#32 reduces_S1024x512_S1024 hφ hacc (ix1 r)
      = ∑ jj : Fin 512, v (ix2 r jj) := by
  refine (Ideal.multiReduction_add_single v 0x00000000#32 reduces_S1024x512_S1024 hφ hacc (ix1 r)).trans ?_
  refine Finset.sum_congr rfl fun jj _ => congrArg v (funext fun a => Fin.ext ?_)
  match a with
  | ⟨0, _⟩ => rfl
  | ⟨1, _⟩ => rfl

/-! ## The matrix product into a zero accumulator -/

/-- The left operand's row axis is the output's row. -/
private theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column axis is the contraction's coordinate. -/
private theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row axis is the contraction's coordinate. -/
private theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column axis is the output's column. -/
private theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator reads, at (r, c), the sum over k of left (r, k) times right (k, c). -/
private theorem matmul_zero_apply (l : FVec Ideal S1024x512 .bf16) (rr : FVec Ideal S512x512 .bf16) (r : Fin 1024) (c : Fin 512) :
    matmul dot_S1024x512_S512x512_S1024x512_1_0_0_1_n_n none l rr (constant (F := Ideal) S1024x512 .f32 0x00000000#32) (ix2 r c)
      = ∑ k : Fin 512, l (ix2 r k) * rr (ix2 k c) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r c) ((ValueIdx.contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r c) ((ValueIdx.contrEquiv1 dot_S1024x512_S512x512_S1024x512_1_0_0_1_n_n 512 rfl rfl).symm k) = ix2 k c := funext fun a => Fin.ext (by
    match a with
    | ⟨0, _⟩ => exact (rhs_mm_0 _ _).trans hk
    | ⟨1, _⟩ => exact rhs_mm_1 _ _)
  rw [el, er]

/-! ## The two statements -/

/-- The zero block is zero. -/
theorem zeroBlk_apply (y : S1x1024x1.Idx) : (zeroBlk (F := Ideal)) y = 0 := by
  obtain ⟨a, b, c, rfl⟩ : ∃ (a : Fin 1) (b : Fin 1024) (c : Fin 1), y = ix3 a b c := ⟨y 0, y 1, y 2, eq_ix3 y⟩
  unfold zeroBlk k0_pay2
  rw [shapeCast_ab_1ab_apply]
  exact Ideal.ofBits_zero_f32

/-- One step at row r. -/
theorem stepOut_apply (x0 : Vec Ideal S1x1024x512 .f32) (x1 : Vec Ideal S1x512x512 .f32) (x2 : Vec Ideal S1x1024x1 .f32)
    (x3 : Vec Ideal S1x1x512 .f32) (prev : Vec Ideal S1x1024x1 .f32) (r : Fin 1024) :
    stepOut x0 x1 x2 x3 prev (ix3 0 r 0)
      = prev (ix3 0 r 0) + ∑ jj : Fin 512, Ideal.exp (cNegTwo * max (x2 (ix3 0 r 0) + x3 (ix3 0 0 jj)
          - cTwo * ∑ k : Fin 512, x0 (ix3 0 r k) * x1 (ix3 0 jj k)) cZero) := by
  unfold stepOut k0_pay1 k0_pay3
  dsimp only
  rw [shapeCast_ab_1ab_apply, addf_apply, shapeCast_1ab_ab_apply, shapeCast_a_a1_apply]
  refine congrArg (prev (ix3 0 r 0) + ·) ((laneSum_apply _ _ _ r).trans (Finset.sum_congr rfl fun jj _ => ?_))
  show Ideal.exp (cNegTwo * max (_ + _ - cTwo * _) cZero) = _
  rw [broadcastTo_a1_ab_apply, broadcastTo_1b_ab_apply, shapeCast_1ab_ab_apply, shapeCast_1ab_ab_apply, matmul_zero_apply]
  refine congrArg (fun z => Ideal.exp (cNegTwo * max (x2 (ix3 0 r 0) + x3 (ix3 0 0 jj) - cTwo * z) cZero))
    (Finset.sum_congr rfl fun k _ => ?_)
  rw [truncf_apply, shapeCast_1ab_ab_apply, transpose_ix2_apply, truncf_apply, shapeCast_1ab_ab_apply]

end Cert.KernelIdeal.Hand

end
-- ==== Proof.KiAccum.lean ====
/-
  The accumulation in closed form, and the region's result.

  After tile j of row block (b, i) the staging buffer's row r holds the sum of the pairwise terms of array row
  i·1024 + r against the array rows below (j+1)·512: zero plus one tile's 512 terms per step. After the last tile that
  is the whole row sum, which is the entry the write-back puts into the result.
-/
import proofs.«156947_j65850438582800_1_alg».proof.Proof.KiBlocks
import proofs.«156947_j65850438582800_1_alg».proof.Proof.KiPayload

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

variable (m : (ℓ : Loc nD τ sig) → Buf (Elt Ideal) ℓ)

/-- One tile more: the terms below n·512 together with the 512 terms of tile n are the terms below (n+1)·512.
    The index set splits at n·512, and jj ↦ n·512 + jj carries the tile onto the upper part. -/
private theorem sum_tile (f : Fin 8192 → EReal) (n : ℕ) (hn : n < 16) :
    (∑ j ∈ Finset.univ.filter (fun j : Fin 8192 => j.val < n * 512), f j)
        + ∑ jj : Fin 512, f ⟨n * 512 + jj.val, by have := jj.isLt; omega⟩
      = ∑ j ∈ Finset.univ.filter (fun j : Fin 8192 => j.val < (n + 1) * 512), f j := by
  have hsplit : Finset.univ.filter (fun j : Fin 8192 => j.val < (n + 1) * 512)
      = Finset.univ.filter (fun j : Fin 8192 => j.val < n * 512)
        ∪ Finset.univ.filter (fun j : Fin 8192 => n * 512 ≤ j.val ∧ j.val < (n + 1) * 512) := by
    ext j
    simp only [Finset.mem_filter, Finset.mem_univ, true_and, Finset.mem_union]
    omega
  have hdisj : Disjoint (Finset.univ.filter (fun j : Fin 8192 => j.val < n * 512))
      (Finset.univ.filter (fun j : Fin 8192 => n * 512 ≤ j.val ∧ j.val < (n + 1) * 512)) := by
    rw [Finset.disjoint_left]
    intro j h1 h2
    simp only [Finset.mem_filter, Finset.mem_univ, true_and] at h1 h2
    omega
  rw [hsplit, Finset.sum_union hdisj]
  congr 1
  refine Finset.sum_bij (fun jj _ => (⟨n * 512 + jj.val, by have := jj.isLt; omega⟩ : Fin 8192)) ?_ ?_ ?_ ?_
  · intro jj _
    simp only [Finset.mem_filter, Finset.mem_univ, true_and]
    have := jj.isLt
    omega
  · intro a _ b _ h
    have h' := congrArg Fin.val h
    simp only at h'
    exact Fin.ext (by omega)
  · intro j hj
    simp only [Finset.mem_filter, Finset.mem_univ, true_and] at hj
    exact ⟨⟨j.val - n * 512, by omega⟩, Finset.mem_univ _, Fin.ext (by simp only; omega)⟩
  · intro jj _
    rfl

/-- Within a row block the point before has the same array, -/
private theorem pB_pred (n : ℕ) (hn : n < cfg0.N) (hn' : n - 1 < cfg0.N) (h0 : ¬n % 16 = 0) :
    pB ⟨n - 1, hn'⟩ = pB ⟨n, hn⟩ := by
  apply Fin.ext
  simp only [pB]
  omega

/-- and the same row block. -/
private theorem pRow_pred (n : ℕ) (hn : n < cfg0.N) (hn' : n - 1 < cfg0.N) (h0 : ¬n % 16 = 0) (r : Fin 1024) :
    pRow ⟨n - 1, hn'⟩ r = pRow ⟨n, hn⟩ r := by
  apply Fin.ext
  simp only [pRow]
  omega

/-- One step at point t adds to row r the 512 pairwise terms of its tile: the four block reads put the array's
    entries into the step's formula, which is then the pairwise term as the specification writes it. -/
private theorem step_apply (c : Dev nD) (t : Fin cfg0.N) (prev : Vec Ideal S1x1024x1 .f32) (r : Fin 1024) :
    stepOut (iblk m c 0 t) (iblk m c 1 t) (iblk m c 2 t) (iblk m c 3 t) prev (ix3 0 r 0)
      = prev (ix3 0 r 0)
        + ∑ jj : Fin 512, tileTerm (V m c main_v8) (V m c main_v11) (V m c main_v12) (pB t) (pRow t r) (pCol t jj) := by
  have key : ∀ a a' b b' s s' : EReal, a = a' → b = b' → s = s' →
      Ideal.exp (cNegTwo * max (a + b - cTwo * s) cZero) = Ideal.exp (cNegTwo * max (a' + b' - cTwo * s') cZero) := by
    intro a a' b b' s s' h1 h2 h3
    rw [h1, h2, h3]
  refine (stepOut_apply (iblk m c 0 t) (iblk m c 1 t) (iblk m c 2 t) (iblk m c 3 t) prev r).trans ?_
  refine congrArg (fun x => prev (ix3 0 r 0) + x) (Finset.sum_congr rfl fun jj _ => ?_)
  exact key _ _ _ _ _ _ (iblk2_apply m c t r) (iblk3_apply m c t jj)
    (Finset.sum_congr rfl fun k _ => congrArg₂ (· * ·) (iblk0_apply m c t r k) (iblk1_apply m c t jj k))

/-- The closed form at position n, by induction on n: a first tile starts from zero, a later one from the point
    before, which lies in the same row block of the same array. -/
private theorem outsAt_apply_aux (c : Dev nD) (r : Fin 1024) : ∀ (n : ℕ) (hn : n < cfg0.N),
    outsAt m c n hn (ix3 0 r 0)
      = ∑ j ∈ Finset.univ.filter (fun j : Fin 8192 => j.val < (n % 16 + 1) * 512),
          tileTerm (V m c main_v8) (V m c main_v11) (V m c main_v12) (pB ⟨n, hn⟩) (pRow ⟨n, hn⟩ r) j := by
  intro n
  induction n using Nat.strong_induction_on with
  | _ n ih =>
    intro hn
    have hlt : n % 16 < 16 := Nat.mod_lt _ (by norm_num)
    by_cases h0 : n % 16 = 0
    · have hempty : Finset.univ.filter (fun j : Fin 8192 => j.val < n % 16 * 512) = ∅ := by
        ext j
        simp only [Finset.mem_filter, Finset.mem_univ, true_and, Finset.notMem_empty, iff_false]
        omega
      refine (congrFun (outsAt_first m c ⟨n, hn⟩ h0) _).trans ?_
      refine (step_apply m c ⟨n, hn⟩ zeroBlk r).trans ?_
      refine Eq.trans ?_ (sum_tile (tileTerm (V m c main_v8) (V m c main_v11) (V m c main_v12) (pB ⟨n, hn⟩) (pRow ⟨n, hn⟩ r)) (n % 16) hlt)
      refine congrArg₂ (· + ·) ((zeroBlk_apply _).trans ?_) rfl
      rw [hempty, Finset.sum_empty]
    · have hn' : n - 1 < cfg0.N := Nat.lt_of_le_of_lt (Nat.sub_le _ _) hn
      have hprev := ih (n - 1) (by omega) hn'
      refine (congrFun (outsAt_later m c ⟨n, hn⟩ h0) _).trans ?_
      refine (step_apply m c ⟨n, hn⟩ _ r).trans ?_
      have e : (n - 1) % 16 + 1 = n % 16 := by omega
      rw [pB_pred n hn hn' h0, pRow_pred n hn hn' h0 r, e] at hprev
      refine Eq.trans ?_ (sum_tile (tileTerm (V m c main_v8) (V m c main_v11) (V m c main_v12) (pB ⟨n, hn⟩) (pRow ⟨n, hn⟩ r)) (n % 16) hlt)
      exact congrArg₂ (· + ·) hprev rfl

/-- The staging buffer's row r after point t: the terms against the array rows the tiles so far cover. -/
theorem outsAt_apply (c : Dev nD) (t : Fin cfg0.N) (r : Fin 1024) :
    outsAt m c t.val t.isLt (ix3 0 r 0)
      = ∑ j ∈ Finset.univ.filter (fun j : Fin 8192 => j.val < (t.val % 16 + 1) * 512),
          tileTerm (V m c main_v8) (V m c main_v11) (V m c main_v12) (pB t) (pRow t r) j :=
  outsAt_apply_aux m c r t.val t.isLt

/-- A block's last point lies in array b -/
private theorem pB_lastPt (b : Fin 2) (ib : Fin 8) : pB (lastPt b ib) = b := by
  apply Fin.ext
  have := b.isLt
  have := ib.isLt
  simp only [pB, lastPt]
  omega

/-- and in row block ib. -/
private theorem pRow_lastPt (b : Fin 2) (ib : Fin 8) (r : Fin 1024) (h : ib.val * 1024 + r.val < 8192) :
    pRow (lastPt b ib) r = ⟨ib.val * 1024 + r.val, h⟩ := by
  apply Fin.ext
  have := b.isLt
  have := ib.isLt
  simp only [pRow, lastPt]
  omega

/-- The region's result, entry by entry. -/
theorem final_out (c : Dev nD) (b : Fin 2) (i : Fin 8192) :
    (dats m 0 c).arrAt 4 cfg0.N (ix3 b i 0) = outEntry (V m c main_v8) (V m c main_v11) (V m c main_v12) b i := by
  obtain ⟨ib, r, rfl⟩ : ∃ (ib : Fin 8) (r : Fin 1024),
      i = ⟨ib.val * 1024 + r.val, by have := ib.isLt; have := r.isLt; omega⟩ :=
    ⟨⟨i.val / 1024, by have := i.isLt; omega⟩, ⟨i.val % 1024, Nat.mod_lt _ (by norm_num)⟩,
      Fin.ext (by simp only; omega)⟩
  refine (arrAt_out_apply m c b ib r).trans ?_
  refine (outsAt_apply m c (lastPt b ib) r).trans ?_
  rw [pB_lastPt, pRow_lastPt]
  have hall : Finset.univ.filter (fun j : Fin 8192 => j.val < ((lastPt b ib).val % 16 + 1) * 512) = Finset.univ := by
    apply Finset.filter_true_of_mem
    intro j _
    have := j.isLt
    have := b.isLt
    have := ib.isLt
    simp only [lastPt]
    omega
  rw [hall]
  rfl

end Cert.KernelIdeal.Hand

end
-- ==== Proof.KiValue.lean ====
/-
  The kernel program's result, over the extended reals, is the loss.

  The region's result entry (b, i, 0) is row i's sum of the pairwise terms of array b of the stack — the stacked array
  being X over Y and both layouts of the norms being its rows' squared norms —, the alignment term is complete before the
  region, and the host operations after the region take the two logarithms and add.
-/
import proofs.«156947_j65850438582800_1_alg».proof.Proof.KiFrame
import proofs.«156947_j65850438582800_1_alg».proof.Proof.KiHost
import proofs.«156947_j65850438582800_1_alg».proof.Proof.KiTail
import proofs.«156947_j65850438582800_1_alg».proof.Proof.KiAccum

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairSpec

variable (m : (ℓ : Loc nD τ sig) → Buf (Elt Ideal) ℓ)

/-- Over a stack whose array b is A and norms that are A's rows' squared norms, an entry of the region's result is a row
    sum of the specification. -/
theorem outEntry_of (a8 : Stack) (a11 : NormCol) (a12 : NormRow) (A : Mat) (b : Fin 2)
    (h8 : ∀ (i : Fin 8192) (k : Fin 512), a8 (ix3 b i k) = A (ix2 i k))
    (h11 : ∀ i : Fin 8192, a11 (ix3 b i 0) = sqn A i) (h12 : ∀ j : Fin 8192, a12 (ix3 b 0 j) = sqn A j) (i : Fin 8192) :
    outEntry a8 a11 a12 b i = rowSum A i := by
  unfold outEntry rowSum tileTerm pairTerm gram
  simp only [h8, h11, h12]

/-- An entry of the region's result is a row sum of the specification. -/
theorem outEntry_eq_rowSum (c : Dev nD) (b : Fin 2) (i : Fin 8192) :
    outEntry (V m c main_v8) (V m c main_v11) (V m c main_v12) b i = rowSum (stackAt (argX m c) (argY m c) b) i :=
  outEntry_of _ _ _ _ b (V_v8_apply m c b) (V_v11_apply m c b) (V_v12_apply m c b) i

/-- The two arrays of the stack. -/
theorem stackAt_zero (X Y : Mat) : stackAt X Y 0 = X := rfl
theorem stackAt_one (X Y : Mat) : stackAt X Y 1 = Y := rfl

/-- The host operations after the region, over a result whose entries are the specification's row sums, give the loss. -/
theorem tailLoss_of_rows (X Y : Mat) (out : NormCol)
    (h : ∀ (b : Fin 2) (i : Fin 8192), out (ix3 b i 0) = rowSum (stackAt X Y b) i) :
    tailLoss (align X Y) out = loss X Y := by
  unfold tailLoss loss uniform
  simp only [h, stackAt_zero, stackAt_one]

/-- The result buffer after the second host stretch holds the loss. -/
theorem result_is_loss (c : Dev nD) :
    StableHlo.after hostOps1 (V1 m c) (Proc.devRef .tc main_v26) = fun _ => loss (argX m c) (argY m c) := by
  funext i
  rw [eq_ix0 i, tail_value, V1_of_ne m c main_v5 (by decide), V_v5_apply]
  exact tailLoss_of_rows _ _ _ fun b i =>
    (congrFun (V1_v13 m c) (ix3 b i 0)).trans ((final_out m c b i).trans (outEntry_eq_rowSum m c b i))

end Cert.KernelIdeal.Hand

end
-- ==== Proof.RefRead.lean ====
/-
  The reference program's run and its operations read one at a time, taken from the generated modules.
-/
import proofs.«156947_j65850438582800_1_alg».proof.Proof.Gen.ReferenceIdeal.Read
-- ==== Proof.RefValue.lean ====
/-
  The reference's result is the loss.

  Read one operation at a time, the reference computes, for each array, the rows' squared norms, the Gram matrix as a
  dot product with the transpose, the pairwise terms over the whole 8192 × 8192 matrix and their sum over both axes, and
  for the alignment the mean over the rows of (the square root of the squared distance) squared. The double sum is the
  sum over rows of the row sums; and for finite inputs a row's squared distance is a nonnegative real, whose square root
  squared is itself.
-/
import proofs.«156947_j65850438582800_1_alg».proof.Proof.RefRead
import proofs.«156947_j65850438582800_1_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.PairSpec

/-! ## The operations' index functions at explicit coordinates -/

/-- Row i's k-th entry, as the row sum of the squares reads it. -/
private theorem idx_sq (i : Fin 8192) (k : Fin 512) : idx_main_v6 (ix1 i) k = ix2 i k :=
  funext fun a => Fin.ext (by match a with | ⟨0, _⟩ => rfl | ⟨1, _⟩ => rfl)

/-- Row i's k-th entry, as the row sum of the squared differences reads it. -/
private theorem idx_dist (i : Fin 8192) (k : Fin 512) : idx_main_call0_v1 (ix1 i) k = ix2 i k :=
  funext fun a => Fin.ext (by match a with | ⟨0, _⟩ => rfl | ⟨1, _⟩ => rfl)

/-- The dot product's left operand at (i, j), k: row i's k-th entry. -/
private theorem idx_dot_l (i j : Fin 8192) (k : Fin 512) : lidx_main_v8 (ix2 i j) k = ix2 i k :=
  funext fun a => Fin.ext (by match a with | ⟨0, _⟩ => rfl | ⟨1, _⟩ => rfl)

/-- The dot product's right operand at (i, j), k, read through the transpose: row j's k-th entry. -/
private theorem idx_dot_r (i j : Fin 8192) (k : Fin 512) : idx_main_v7 (ridx_main_v8 (ix2 i j) k) = ix2 j k :=
  funext fun a => Fin.ext (by match a with | ⟨0, _⟩ => rfl | ⟨1, _⟩ => rfl)

/-- The column broadcast of the norms at (i, j) reads row i's. -/
private theorem idx_col (i j : Fin 8192) : idx_main_v9 (idx_main_v11 (ix2 i j)) = ix1 i :=
  funext fun a => Fin.ext (by match a with | ⟨0, _⟩ => rfl)

/-- The row broadcast of the norms at (i, j) reads row j's. -/
private theorem idx_row (i j : Fin 8192) : idx_main_v10 (idx_main_v12 (ix2 i j)) = ix1 j :=
  funext fun a => Fin.ext (by match a with | ⟨0, _⟩ => rfl)

/-! ## One array's uniformity term, stage by stage -/

/-- The reduction over axis 1 of the squares is the row's squared norm. -/
private theorem sqn_stage (A : Mat) (i : Fin 8192) : val_main_v6 (F := Ideal) A (ix1 i) = sqn A i := by
  rw [val_main_v6_apply, val_main_cst_1_apply, Ideal.ofBits_def, Ideal.ofBits_zero_f32, zero_add]
  refine Finset.sum_congr rfl fun k _ => ?_
  rw [val_main_v5_apply, idx_sq, Ideal.mulf_def]

/-- The dot product with the transpose is the Gram entry. -/
private theorem gram_stage (A : Mat) (i j : Fin 8192) : val_main_v8 (F := Ideal) A (ix2 i j) = gram A i j := by
  rw [val_main_v8_apply]
  refine Finset.sum_congr rfl fun k _ => ?_
  rw [val_main_v7_apply, idx_dot_l, idx_dot_r]

/-- The exponential stage at (i, j) is the pairwise term. -/
private theorem pair_stage (A : Mat) (i j : Fin 8192) : val_main_v21 (F := Ideal) A (ix2 i j) = pairTerm A i j := by
  rw [val_main_v21_apply, val_main_v20_apply, val_main_v19_apply, val_main_cst_4_apply, val_main_v18_apply,
    val_main_v17_apply, val_main_cst_3_apply, val_main_v16_apply, val_main_v13_apply, val_main_v11_apply,
    val_main_v9_apply, val_main_v12_apply, val_main_v10_apply, val_main_v15_apply, val_main_v14_apply,
    val_main_cst_2_apply, idx_col, idx_row, sqn_stage, sqn_stage, gram_stage]
  rfl

/-- The sum over both axes is the sum over the rows of the row sums. -/
private theorem total_stage (A : Mat) : val_main_v22 (F := Ideal) A ix0 = ∑ i : Fin 8192, rowSum A i := by
  rw [val_main_v22_apply, val_main_cst_5_apply, Ideal.ofBits_def, Ideal.ofBits_zero_f32, zero_add, sum_idx2]
  refine Finset.sum_congr rfl fun i _ => ?_
  exact Finset.sum_congr rfl fun j _ => pair_stage A i j

/-- The logarithm stage is the uniformity term. -/
private theorem uniform_stage (A : Mat) : val_main_v25 (F := Ideal) A ix0 = uniform A := by
  rw [val_main_v25_apply, val_main_v24_apply, val_main_v23_apply, total_stage, val_main_cst_6_apply,
    val_main_cst_7_apply]
  rfl

/-- The second array's stages are the first's, operation for operation. -/
private theorem second_stage {F : FTy → Type} [FloatOps F] (A : (⟨S8192x512, .f32⟩ : BufTy).Contents (Elt F)) :
    val_main_v46 (F := F) A = val_main_v25 (F := F) A := rfl

/-! ## The alignment term -/

/-- A finite sum of reals, taken in the extended reals, is the real sum. -/
private theorem coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A sum of squares of reals is a nonnegative real, so its square root squared is itself. -/
private theorem sqrt_mul_self_sum_sq (f : Fin 512 → EReal) (hf : ∀ k, ∃ r : ℝ, f k = (r : EReal)) :
    Ideal.sqrt (∑ k, f k * f k) * Ideal.sqrt (∑ k, f k * f k) = ∑ k, f k * f k := by
  choose g hg using hf
  have h : ∑ k, f k * f k = ((∑ k, g k * g k : ℝ) : EReal) := by
    rw [← coe_sum]
    exact Finset.sum_congr rfl fun k _ => by rw [hg k, ← EReal.coe_mul]
  have h0 : (0 : ℝ) ≤ ∑ k, g k * g k := Finset.sum_nonneg fun k _ => mul_self_nonneg (g k)
  rw [h, Ideal.sqrt_coe, if_neg (not_lt.mpr h0), ← EReal.coe_mul, Real.mul_self_sqrt h0]

/-- Row i's (square root of the squared distance) squared is the squared distance. -/
private theorem dist_stage (X Y : Mat) (hX : Finite X) (hY : Finite Y) (i : Fin 8192) :
    val_main_v2 (F := Ideal) X Y (ix1 i)
      = ∑ k : Fin 512, (X (ix2 i k) - Y (ix2 i k)) * (X (ix2 i k) - Y (ix2 i k)) := by
  have hs : val_main_call0_v1 (F := Ideal) X Y (ix1 i)
      = ∑ k : Fin 512, (X (ix2 i k) - Y (ix2 i k)) * (X (ix2 i k) - Y (ix2 i k)) := by
    rw [val_main_call0_v1_apply, val_main_call0_cst_apply, Ideal.ofBits_def, Ideal.ofBits_zero_f32, zero_add]
    refine Finset.sum_congr rfl fun k _ => ?_
    rw [val_main_call0_v0_apply, val_main_v0_apply, idx_dist, Ideal.mulf_def, Ideal.subf_def]
  rw [val_main_v2_apply, val_main_v1_apply, hs, Ideal.hostUnary_sqrt_def, Ideal.mulf_def]
  refine sqrt_mul_self_sum_sq (fun k => X (ix2 i k) - Y (ix2 i k)) fun k => ?_
  obtain ⟨x, hx⟩ := hX (ix2 i k)
  obtain ⟨y, hy⟩ := hY (ix2 i k)
  exact ⟨x - y, by rw [hx, hy, ← EReal.coe_sub]⟩

/-- The mean over the rows is the alignment term. -/
private theorem align_stage (X Y : Mat) (hX : Finite X) (hY : Finite Y) :
    val_main_v4 (F := Ideal) X Y ix0 = align X Y := by
  rw [val_main_v4_apply, val_main_v3_apply, val_main_cst_apply, val_main_cst_0_apply, Ideal.ofBits_def,
    Ideal.ofBits_zero_f32, zero_add, ← Equiv.sum_comp (idxEquiv1 (n := 8192)).symm]
  have hr : ∑ i : Fin 8192, val_main_v2 (F := Ideal) X Y ((idxEquiv1 (n := 8192)).symm i)
      = ∑ i : Fin 8192, ∑ k : Fin 512, (X (ix2 i k) - Y (ix2 i k)) * (X (ix2 i k) - Y (ix2 i k)) :=
    Finset.sum_congr rfl fun i _ => dist_stage X Y hX hY i
  rw [hr]
  rfl

/-- The reference's last stage, at finite arguments, is the loss. -/
theorem ref_is_loss (X Y : Mat) (hX : Finite X) (hY : Finite Y) :
    val_main_v49 (F := Ideal) X Y ix0 = loss X Y := by
  rw [val_main_v49_apply, val_main_v48_apply, val_main_v47_apply, val_main_cst_15_apply, second_stage,
    uniform_stage, uniform_stage, align_stage X Y hX hY]
  rfl

end Cert.ReferenceIdeal.RefValue

end
-- ==== Proof.PreFinite.lean ====
/-
  The precondition says every entry of both arguments is a real number.

  The printed predicate is the conjunction of two all-reductions of |a| < +∞ over the array's entries; it being one
  means each comparison is one at every index, and an extended real whose absolute value is below +∞ is a real.
-/
import proofs.«156947_j65850438582800_1_alg».proof.Pre_finite_inputs
import proofs.«156947_j65850438582800_1_alg».proof.Proof.Spec
import Idealize.ShloMosaic.Lib.ValueIdx
import Idealize.ShloMosaic.Lib.ReduceAll
import Idealize.ShloMosaic.PureOps.Ideal.Laws

noncomputable section

namespace Cert.PreFinite

open Idealize.ShloMosaic Idealize.ShloMosaic.ValueIdx
open Cert.PairSpec

variable [Cert.Pre_finite_inputs.Facts]

/-- The scalar shape has one index. -/
private instance subsingleton_scalar_idx : Subsingleton (Cert.Pre_finite_inputs.S_).Idx :=
  ⟨fun a b => funext fun d => d.elim0⟩

/-- The word 0x7F800000 denotes +∞. -/
private theorem inf_word : Ideal.ofBits .f32 0x7F800000#32 = (⊤ : EReal) := by
  simp [Ideal.ofBits, Ideal.ieee]

/-- An extended real with max(a, −a) < +∞ is a real: at −∞ and at +∞ the maximum is +∞. -/
private theorem real_of_abs_lt_inf (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | coe r => exact ⟨r, rfl⟩
  | top => simp [Ideal.cmp] at h

/-- One array: if the all-reduction of |a| < +∞ is one, every entry is a real. -/
theorem finite_of_all (A : Mat)
    (h : Host.reduce IntOp.andi
          (cmpf .olt (Host.absf A)
            (broadcastInDim Cert.Pre_finite_inputs.S8192x512 ![] Cert.Pre_finite_inputs.Facts.bcast_S_S8192x512
              (constant (F := Ideal) Cert.Pre_finite_inputs.S_ .f32 0x7F800000#32)))
          (constantI Cert.Pre_finite_inputs.S_ 1 1#1)
          Cert.Pre_finite_inputs.Facts.reducesTo_S8192x512_S_d0_1 Cert.Pre_finite_inputs.Facts.h_S_ ix0 = 1#1) :
    Finite A := by
  intro i
  have e := Host.reduce_andi_all _ _ _ _ _ h i
  exact real_of_abs_lt_inf (A i) e

/-- From the precondition to finiteness of both arrays. -/
theorem finite_of_pre (x y : Mat) (h : Cert.Pre_finite_inputs.fn (F := Ideal) x y = fun _ => 1#1) :
    Finite x ∧ Finite y := by
  have h0 := congrFun h ValueIdx.ix0
  dsimp only [Cert.Pre_finite_inputs.fn] at h0
  obtain ⟨hx, hy⟩ := IntOp.andi_eq_one.1 h0
  exact ⟨finite_of_all x hx, finite_of_all y hy⟩

end Cert.PreFinite

end
-- ==== Proof.lean ====
/-
  The pairwise-exponential row-sum kernel against its reference: alignment plus uniformity of two arrays of 8192 rows.

  Both programs compute  align(X, Y) + ½·(u(X) + u(Y))  over the extended reals, where align is the mean over the rows of
  the squared distance and u(A) = log((Σ_i Σ_j exp(−2·max(s_i + s_j − 2 g_ij, 0)) − 8192) / 67100672) with s the rows'
  squared norms and g the Gram matrix.
  The kernel stacks X and Y, hands its body the norms as a column and as a row, and sums the pairwise terms tile by tile:
  sixteen tiles of 512 columns accumulate into each row block's output, reset at the first tile and written back after the
  last; the host then sums the rows, takes the logarithms and adds the alignment term, which it computed before the
  region. The reference sums the whole 8192 × 8192 matrix at once and writes the alignment as the square of a norm.
  Three laws join the two sides: a sum taken tile by tile is the sum (addition on the extended reals is commutative and
  associative, so nothing needs finiteness there); the matrix unit's product into a zero accumulator is the plain sum
  over the contracted axis, and a change of float format is the identity; and for FINITE inputs a row's squared distance
  is a nonnegative real, so the square of its square root is itself — the one place the precondition is used.
  The three frames: the two kernel programs by the pipeline's run with the stacked array's buffer dealt in halves to
  the two windows that read it; the reference by its run with the result dropped. The idealization rewrote nothing, so
  there is nothing to preserve.
-/
import proofs.«156947_j65850438582800_1_alg».proof.Defs
import proofs.«156947_j65850438582800_1_alg».proof.Proof.Gen.Kernel
import proofs.«156947_j65850438582800_1_alg».proof.Proof.Gen.KernelIdeal
import proofs.«156947_j65850438582800_1_alg».proof.Proof.Gen.ReferenceIdeal
import proofs.«156947_j65850438582800_1_alg».proof.Proof.Gen.Pre_finite_inputs
import proofs.«156947_j65850438582800_1_alg».proof.Proof.KbFrame
import proofs.«156947_j65850438582800_1_alg».proof.Proof.KiValue
import proofs.«156947_j65850438582800_1_alg».proof.Proof.RefValue
import proofs.«156947_j65850438582800_1_alg».proof.Proof.PreFinite

noncomputable section

namespace Cert.Proof

open Idealize.ShloMosaic Idealize.ShloMosaic.TcCoe Idealize.SL.Sem Idealize.ShloMosaic.ValueIdx
open Cert.PairSpec

/-- The word-level kernel program runs and leaves its arguments unchanged. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end with the loss in their result. -/
theorem algebraic : Cert.algebraic_KernelIdeal_ReferenceIdeal := by
  intro m ρ m' ρ' hpre hagree
  refine ⟨fun c => fun _ => loss (Cert.KernelIdeal.Hand.argX m c) (Cert.KernelIdeal.Hand.argY m c), ?_, ?_⟩
  · exact (θ_run Cert.KernelIdeal.defs _ _).mono
      (fun r h c => ⟨(h c).1.trans (Cert.KernelIdeal.Hand.result_is_loss m c), (h c).2.1, (h c).2.2⟩)
      (Cert.KernelIdeal.Hand.run_main m ρ)
  · refine (θ_run Cert.ReferenceIdeal.defs _ _).mono (fun r h c => ⟨(h c).1.trans ?_, (h c).2⟩)
      (Cert.ReferenceIdeal.Value.run (F := Ideal) m' ρ')
    rw [(hagree c).1, (hagree c).2, Cert.ReferenceIdeal.Read.val_main_v49_eq]
    obtain ⟨hx, hy⟩ := Cert.PreFinite.finite_of_pre _ _ (hpre c)
    funext i
    rw [eq_ix0 i]
    exact Cert.ReferenceIdeal.RefValue.ref_is_loss _ _ hx hy

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
